-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x128x128x128 : Shape := ⟨4, ![8, 128, 128, 128]⟩
abbrev S8x64x256x256 : Shape := ⟨4, ![8, 64, 256, 256]⟩
abbrev S8x32x512x512 : Shape := ⟨4, ![8, 32, 512, 512]⟩
abbrev S8x512x32x32 : Shape := ⟨4, ![8, 512, 32, 32]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  bcast_S_S8x512x32x32 : S_.BroadcastsInDim S8x512x32x32 (![] : Fin 0 → Fin S8x512x32x32.rank)
  reducesTo_S8x512x32x32_S_d0_1_2_3 : S8x512x32x32.ReducesTo [0, 1, 2, 3] S_

variable [Facts]

def fn_part1 {F : FTy → Type} [FloatOps F] (main_arg4 : FVec F S8x512x32x32 .f32) (main_v13 : IVec S_ 1) (main_v16 : IVec S8x32x512x512 1) : IVec S_ 1 :=
  let main_c_5 : IVec S_ 1 := constantI S_ 1 1#1
  let main_v17 : IVec S_ 1 := (fun x v => Host.reduce IntOp.andi x v reducesTo_S8x32x512x512_S_d0_1_2_3 h_S_) main_v16 main_c_5
  let main_v18 : IVec S_ 1 := andi main_v13 main_v17
  let main_v19 : FVec F S8x512x32x32 .f32 := Host.absf main_arg4
  let main_cst_6 : FVec F S_ .f32 := constant S_ .f32 0x7F800000#32
  let main_v20 : FVec F S8x512x32x32 .f32 := broadcastInDim S8x512x32x32 ![] bcast_S_S8x512x32x32 main_cst_6
  let main_v21 : IVec S8x512x32x32 1 := cmpf .olt main_v19 main_v20
  let main_c_7 : IVec S_ 1 := constantI S_ 1 1#1
  let main_v22 : IVec S_ 1 := (fun x v => Host.reduce IntOp.andi x v reducesTo_S8x512x32x32_S_d0_1_2_3 h_S_) main_v21 main_c_7
  let main_v23 : IVec S_ 1 := andi main_v18 main_v22
  main_v23

def fn {F : FTy → Type} [FloatOps F] (main_arg0 : FVec F S8x256x64x64 .f32) (main_arg1 : FVec F S8x128x128x128 .f32) (main_arg2 : FVec F S8x64x256x256 .f32) (main_arg3 : FVec F S8x32x512x512 .f32) (main_arg4 : FVec F S8x512x32x32 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x128x128x128 .f32 := Host.absf main_arg1
  let main_cst_0 : FVec F S_ .f32 := constant S_ .f32 0x7F800000#32
  let main_v5 : FVec F S8x128x128x128 .f32 := broadcastInDim S8x128x128x128 ![] bcast_S_S8x128x128x128 main_cst_0
  let main_v6 : IVec S8x128x128x128 1 := cmpf .olt main_v4 main_v5
  let main_c_1 : IVec S_ 1 := constantI S_ 1 1#1
  let main_v7 : IVec S_ 1 := (fun x v => Host.reduce IntOp.andi x v reducesTo_S8x128x128x128_S_d0_1_2_3 h_S_) main_v6 main_c_1
  let main_v8 : IVec S_ 1 := andi main_v3 main_v7
  let main_v9 : FVec F S8x64x256x256 .f32 := Host.absf main_arg2
  let main_cst_2 : FVec F S_ .f32 := constant S_ .f32 0x7F800000#32
  let main_v10 : FVec F S8x64x256x256 .f32 := broadcastInDim S8x64x256x256 ![] bcast_S_S8x64x256x256 main_cst_2
  let main_v11 : IVec S8x64x256x256 1 := cmpf .olt main_v9 main_v10
  let main_c_3 : IVec S_ 1 := constantI S_ 1 1#1
  let main_v12 : IVec S_ 1 := (fun x v => Host.reduce IntOp.andi x v reducesTo_S8x64x256x256_S_d0_1_2_3 h_S_) main_v11 main_c_3
  let main_v13 : IVec S_ 1 := andi main_v8 main_v12
  let main_v14 : FVec F S8x32x512x512 .f32 := Host.absf main_arg3
  let main_cst_4 : FVec F S_ .f32 := constant S_ .f32 0x7F800000#32
  let main_v15 : FVec F S8x32x512x512 .f32 := broadcastInDim S8x32x512x512 ![] bcast_S_S8x32x512x512 main_cst_4
  let main_v16 : IVec S8x32x512x512 1 := cmpf .olt main_v14 main_v15
  fn_part1 (F := F) main_arg4 main_v13 main_v16
-- ==== Kernel.lean ====
abbrev S8x256x64x64 : Shape := ⟨4, ![8, 256, 64, 64]⟩
abbrev S8x128x128x128 : Shape := ⟨4, ![8, 128, 128, 128]⟩
abbrev S8x64x256x256 : Shape := ⟨4, ![8, 64, 256, 256]⟩
abbrev S8x32x512x512 : Shape := ⟨4, ![8, 32, 512, 512]⟩
abbrev S8x512x32x32 : Shape := ⟨4, ![8, 512, 32, 32]⟩
abbrev S8x256x32x32 : Shape := ⟨4, ![8, 256, 32, 32]⟩
abbrev S8x4x64x64 : Shape := ⟨4, ![8, 4, 64, 64]⟩
abbrev S8x4x32x32 : Shape := ⟨4, ![8, 4, 32, 32]⟩
abbrev S8x4x32x2x64 : Shape := ⟨5, ![8, 4, 32, 2, 64]⟩
abbrev S8x4x32x64 : Shape := ⟨4, ![8, 4, 32, 64]⟩
abbrev S8x4x32x32x2 : Shape := ⟨5, ![8, 4, 32, 32, 2]⟩
abbrev S8x128x32x32 : Shape := ⟨4, ![8, 128, 32, 32]⟩
abbrev S8x4x128x128 : Shape := ⟨4, ![8, 4, 128, 128]⟩
abbrev S8x4x32x4x128 : Shape := ⟨5, ![8, 4, 32, 4, 128]⟩
abbrev S8x4x32x128 : Shape := ⟨4, ![8, 4, 32, 128]⟩
abbrev S8x4x32x32x4 : Shape := ⟨5, ![8, 4, 32, 32, 4]⟩
abbrev S8x64x32x32 : Shape := ⟨4, ![8, 64, 32, 32]⟩
abbrev S8x4x256x256 : Shape := ⟨4, ![8, 4, 256, 256]⟩
abbrev S8x4x32x8x256 : Shape := ⟨5, ![8, 4, 32, 8, 256]⟩
abbrev S8x4x32x256 : Shape := ⟨4, ![8, 4, 32, 256]⟩
abbrev S8x4x32x32x8 : Shape := ⟨5, ![8, 4, 32, 32, 8]⟩
abbrev S8x32x32x32 : Shape := ⟨4, ![8, 32, 32, 32]⟩
abbrev S8x1x512x512 : Shape := ⟨4, ![8, 1, 512, 512]⟩
abbrev S8x1x32x32 : Shape := ⟨4, ![8, 1, 32, 32]⟩
abbrev S8x1x32x16x512 : Shape := ⟨5, ![8, 1, 32, 16, 512]⟩
abbrev S8x1x32x512 : Shape := ⟨4, ![8, 1, 32, 512]⟩
abbrev S8x1x32x32x16 : Shape := ⟨5, ![8, 1, 32, 32, 16]⟩
abbrev S8x16x32x32 : Shape := ⟨4, ![8, 16, 32, 32]⟩

abbrev nBuf : Space → Nat
  | .hbm => 10
  | .vmem => 28
  | .smem => 0
  | _ => 0

abbrev bufTy : (tb : Table) → Fin (tcTables nBuf tb) → BufTy
  | .hbm, ⟨0, _⟩ => ⟨S8x256x64x64, .f32⟩
  | .hbm, ⟨1, _⟩ => ⟨S8x128x128x128, .f32⟩
  | .hbm, ⟨2, _⟩ => ⟨S8x64x256x256, .f32⟩
  | .hbm, ⟨3, _⟩ => ⟨S8x32x512x512, .f32⟩
  | .hbm, ⟨4, _⟩ => ⟨S8x512x32x32, .f32⟩
  | .hbm, ⟨5, _⟩ => ⟨S8x256x32x32, .f32⟩
  | .hbm, ⟨6, _⟩ => ⟨S8x128x32x32, .f32⟩
  | .hbm, ⟨7, _⟩ => ⟨S8x64x32x32, .f32⟩
  | .hbm, ⟨8, _⟩ => ⟨S8x32x32x32, .f32⟩
  | .hbm, ⟨9, _⟩ => ⟨S8x512x32x32, .f32⟩
  | .local _ .vmem, ⟨0, _⟩ => ⟨S8x4x64x64, .f32⟩
  | .local _ .vmem, ⟨1, _⟩ => ⟨S8x4x64x64, .f32⟩
  | .local _ .vmem, ⟨2, _⟩ => ⟨S8x4x32x32, .f32⟩
  | .local _ .vmem, ⟨3, _⟩ => ⟨S8x4x32x32, .f32⟩
  | .local _ .vmem, ⟨4, _⟩ => ⟨S8x4x128x128, .f32⟩
  | .local _ .vmem, ⟨5, _⟩ => ⟨S8x4x128x128, .f32⟩
  | .local _ .vmem, ⟨6, _⟩ => ⟨S8x4x32x32, .f32⟩
  | .local _ .vmem, ⟨7, _⟩ => ⟨S8x4x32x32, .f32⟩
  | .local _ .vmem, ⟨8, _⟩ => ⟨S8x4x256x256, .f32⟩
  | .local _ .vmem, ⟨9, _⟩ => ⟨S8x4x256x256, .f32⟩
  | .local _ .vmem, ⟨10, _⟩ => ⟨S8x4x32x32, .f32⟩
  | .local _ .vmem, ⟨11, _⟩ => ⟨S8x4x32x32, .f32⟩
  | .local _ .vmem, ⟨12, _⟩ => ⟨S8x1x512x512, .f32⟩
  | .local _ .vmem, ⟨13, _⟩ => ⟨S8x1x512x512, .f32⟩
  | .local _ .vmem, ⟨14, _⟩ => ⟨S8x1x32x32, .f32⟩
  | .local _ .vmem, ⟨15, _⟩ => ⟨S8x1x32x32, .f32⟩
  | .local _ .vmem, ⟨16, _⟩ => ⟨S8x16x32x32, .f32⟩
  | .local _ .vmem, ⟨17, _⟩ => ⟨S8x16x32x32, .f32⟩
  | .local _ .vmem, ⟨18, _⟩ => ⟨S8x16x32x32, .f32⟩
  | .local _ .vmem, ⟨19, _⟩ => ⟨S8x16x32x32, .f32⟩
  | .local _ .vmem, ⟨20, _⟩ => ⟨S8x16x32x32, .f32⟩
  | .local _ .vmem, ⟨21, _⟩ => ⟨S8x16x32x32, .f32⟩
  | .local _ .vmem, ⟨22, _⟩ => ⟨S8x16x32x32, .f32⟩
  | .local _ .vmem, ⟨23, _⟩ => ⟨S8x16x32x32, .f32⟩
  | .local _ .vmem, ⟨24, _⟩ => ⟨S8x16x32x32, .f32⟩
  | .local _ .vmem, ⟨25, _⟩ => ⟨S8x16x32x32, .f32⟩
  | .local _ .vmem, ⟨26, _⟩ => ⟨S8x16x32x32, .f32⟩
  | .local _ .vmem, ⟨27, _⟩ => ⟨S8x16x32x32, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S8x4x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x4x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S8x4x256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x4x32x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![32], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S8x1x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x1x32x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![32], ![false]⟩

def cc4_transform_0 (i : grid4.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc4_transform_1 (i : grid4.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc4_transform_2 (i : grid4.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc4_transform_3 (i : grid4.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage4_0 : Fin 2 → Memref sig .tc .vmem S8x16x32x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x16x32x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8x16x32x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x16x32x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8x16x32x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8x16x32x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S8x4x64x64_S8x4x64x64_0_0_0_0 : ∀ a, (![0, 0, 0, 0] : Fin 4 → Nat) a + S8x4x64x64.size a ≤ S8x4x64x64.size a
  h_S8x4x64x64 : 0 < S8x4x64x64.numel
  shapeCasts_S8x4x64x64_S8x4x32x2x64 : S8x4x64x64.ShapeCasts S8x4x32x2x64
  reduces_S8x4x32x2x64_S8x4x32x64 : S8x4x32x2x64.Reduces [3] S8x4x32x64
  shapeCasts_S8x4x32x64_S8x4x32x32x2 : S8x4x32x64.ShapeCasts S8x4x32x32x2
  reduces_S8x4x32x32x2_S8x4x32x32 : S8x4x32x32x2.Reduces [4] S8x4x32x32
  inb_S8x4x32x32_S8x4x32x32_0_0_0_0 : ∀ a, (![0, 0, 0, 0] : Fin 4 → Nat) a + S8x4x32x32.size a ≤ S8x4x32x32.size a
  h_S8x4x32x32 : 0 < S8x4x32x32.numel
  inb_S8x4x128x128_S8x4x128x128_0_0_0_0 : ∀ a, (![0, 0, 0, 0] : Fin 4 → Nat) a + S8x4x128x128.size a ≤ S8x4x128x128.size a
  h_S8x4x128x128 : 0 < S8x4x128x128.numel
  shapeCasts_S8x4x128x128_S8x4x32x4x128 : S8x4x128x128.ShapeCasts S8x4x32x4x128
  reduces_S8x4x32x4x128_S8x4x32x128 : S8x4x32x4x128.Reduces [3] S8x4x32x128
  shapeCasts_S8x4x32x128_S8x4x32x32x4 : S8x4x32x128.ShapeCasts S8x4x32x32x4
  reduces_S8x4x32x32x4_S8x4x32x32 : S8x4x32x32x4.Reduces [4] S8x4x32x32
  inb_S8x4x256x256_S8x4x256x256_0_0_0_0 : ∀ a, (![0, 0, 0, 0] : Fin 4 → Nat) a + S8x4x256x256.size a ≤ S8x4x256x256.size a
  h_S8x4x256x256 : 0 < S8x4x256x256.numel
  shapeCasts_S8x4x256x256_S8x4x32x8x256 : S8x4x256x256.ShapeCasts S8x4x32x8x256
  reduces_S8x4x32x8x256_S8x4x32x256 : S8x4x32x8x256.Reduces [3] S8x4x32x256
  shapeCasts_S8x4x32x256_S8x4x32x32x8 : S8x4x32x256.ShapeCasts S8x4x32x32x8
  reduces_S8x4x32x32x8_S8x4x32x32 : S8x4x32x32x8.Reduces [4] S8x4x32x32
  inb_S8x1x512x512_S8x1x512x512_0_0_0_0 : ∀ a, (![0, 0, 0, 0] : Fin 4 → Nat) a + S8x1x512x512.size a ≤ S8x1x512x512.size a
  h_S8x1x512x512 : 0 < S8x1x512x512.numel
  shapeCasts_S8x1x512x512_S8x1x32x16x512 : S8x1x512x512.ShapeCasts S8x1x32x16x512
  reduces_S8x1x32x16x512_S8x1x32x512 : S8x1x32x16x512.Reduces [3] S8x1x32x512
  shapeCasts_S8x1x32x512_S8x1x32x32x16 : S8x1x32x512.ShapeCasts S8x1x32x32x16
  reduces_S8x1x32x32x16_S8x1x32x32 : S8x1x32x32x16.Reduces [4] S8x1x32x32
  inb_S8x1x32x32_S8x1x32x32_0_0_0_0 : ∀ a, (![0, 0, 0, 0] : Fin 4 → Nat) a + S8x1x32x32.size a ≤ S8x1x32x32.size a
  h_S8x1x32x32 : 0 < S8x1x32x32.numel
  inb_S8x16x32x32_S8x16x32x32_0_0_0_0 : ∀ a, (![0, 0, 0, 0] : Fin 4 → Nat) a + S8x16x32x32.size a ≤ S8x16x32x32.size a
  h_S8x16x32x32 : 0 < S8x16x32x32.numel
  shapeCasts_S8x16x32x32_S8x16x32x32 : S8x16x32x32.ShapeCasts S8x16x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x64x64.size a ≤ S8x256x64x64.size a
  hwx0_0 : ∀ i : grid0.Coords, EltTy.bits .f32 = 32 ∨ (Rect.block (s := S8x256x64x64) S8x4x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4x32x32.size a ≤ S8x256x32x32.size a
  hwx0_1 : ∀ i : grid0.Coords, EltTy.bits .f32 = 32 ∨ (Rect.block (s := S8x256x32x32) S8x4x32x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x4x128x128.size a ≤ S8x128x128x128.size a
  hwx1_0 : ∀ i : grid1.Coords, EltTy.bits .f32 = 32 ∨ (Rect.block (s := S8x128x128x128) S8x4x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x4x32x32.size a ≤ S8x128x32x32.size a
  hwx1_1 : ∀ i : grid1.Coords, EltTy.bits .f32 = 32 ∨ (Rect.block (s := S8x128x32x32) S8x4x32x32.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x4x256x256.size a ≤ S8x64x256x256.size a
  hwx2_0 : ∀ i : grid2.Coords, EltTy.bits .f32 = 32 ∨ (Rect.block (s := S8x64x256x256) S8x4x256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x4x32x32.size a ≤ S8x64x32x32.size a
  hwx2_1 : ∀ i : grid2.Coords, EltTy.bits .f32 = 32 ∨ (Rect.block (s := S8x64x32x32) S8x4x32x32.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x1x512x512.size a ≤ S8x32x512x512.size a
  hwx3_0 : ∀ i : grid3.Coords, EltTy.bits .f32 = 32 ∨ (Rect.block (s := S8x32x512x512) S8x1x512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x1x32x32.size a ≤ S8x32x32x32.size a
  hwx3_1 : ∀ i : grid3.Coords, EltTy.bits .f32 = 32 ∨ (Rect.block (s := S8x32x32x32) S8x1x32x32.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x16x32x32.size a ≤ S8x256x32x32.size a
  hwx4_0 : ∀ i : grid4.Coords, EltTy.bits .f32 = 32 ∨ (Rect.block (s := S8x256x32x32) S8x16x32x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x16x32x32.size a ≤ S8x128x32x32.size a
  hwx4_1 : ∀ i : grid4.Coords, EltTy.bits .f32 = 32 ∨ (Rect.block (s := S8x128x32x32) S8x16x32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x16x32x32.size a ≤ S8x64x32x32.size a
  hwx4_2 : ∀ i : grid4.Coords, EltTy.bits .f32 = 32 ∨ (Rect.block (s := S8x64x32x32) S8x16x32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x16x32x32.size a ≤ S8x32x32x32.size a
  hwx4_3 : ∀ i : grid4.Coords, EltTy.bits .f32 = 32 ∨ (Rect.block (s := S8x32x32x32) S8x16x32x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8x16x32x32.size a ≤ S8x512x32x32.size a
  hwx4_4 : ∀ i : grid4.Coords, EltTy.bits .f32 = 32 ∨ (Rect.block (s := S8x512x32x32) S8x16x32x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x16x32x32.size a ≤ S8x512x32x32.size a
  hwx4_5 : ∀ i : grid4.Coords, EltTy.bits .f32 = 32 ∨ (Rect.block (s := S8x512x32x32) S8x16x32x32.size (cc4_transform_5 i) (hinb4_5 i)).WholeWords (EltTy.packing .f32)

variable [Facts₀]

abbrev win0_0 : Pipeline.Window sig grid0 :=
  Pipeline.Window.ofSpec (Memref.whole main_arg0) S8x4x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S8x4x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x4x32x32.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S8x4x256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8x4x32x32.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S8x1x512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S8x1x32x32.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v0) S8x16x32x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S8x16x32x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S8x16x32x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S8x16x32x32.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg4) S8x16x32x32.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v4) S8x16x32x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S8x256x64x64 : Shape := ⟨4, ![8, 256, 64, 64]⟩
abbrev S8x128x128x128 : Shape := ⟨4, ![8, 128, 128, 128]⟩
abbrev S8x64x256x256 : Shape := ⟨4, ![8, 64, 256, 256]⟩
abbrev S8x32x512x512 : Shape := ⟨4, ![8, 32, 512, 512]⟩
abbrev S8x512x32x32 : Shape := ⟨4, ![8, 512, 32, 32]⟩
abbrev S_ : Shape := ⟨0, ![]⟩
abbrev S8x256x32x32 : Shape := ⟨4, ![8, 256, 32, 32]⟩
abbrev S1x8x1x256x1x32x1x32 : Shape := ⟨8, ![1, 8, 1, 256, 1, 32, 1, 32]⟩
abbrev S1x8x2x256x1x32x1x32 : Shape := ⟨8, ![1, 8, 2, 256, 1, 32, 1, 32]⟩
abbrev S8x128x32x32 : Shape := ⟨4, ![8, 128, 32, 32]⟩
abbrev S1x8x1x128x1x32x1x32 : Shape := ⟨8, ![1, 8, 1, 128, 1, 32, 1, 32]⟩
abbrev S1x8x4x128x1x32x1x32 : Shape := ⟨8, ![1, 8, 4, 128, 1, 32, 1, 32]⟩
abbrev S8x64x32x32 : Shape := ⟨4, ![8, 64, 32, 32]⟩
abbrev S1x8x1x64x1x32x1x32 : Shape := ⟨8, ![1, 8, 1, 64, 1, 32, 1, 32]⟩
abbrev S1x8x8x64x1x32x1x32 : Shape := ⟨8, ![1, 8, 8, 64, 1, 32, 1, 32]⟩
abbrev S8x32x32x32 : Shape := ⟨4, ![8, 32, 32, 32]⟩
abbrev S1x8x1x32x1x32x1x32 : Shape := ⟨8, ![1, 8, 1, 32, 1, 32, 1, 32]⟩
abbrev S1x8x16x32x1x32x1x32 : Shape := ⟨8, ![1, 8, 16, 32, 1, 32, 1, 32]⟩

abbrev nBuf : Space → Nat
  | .hbm => 36
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x128x128x128, .f32⟩
  | .hbm, ⟨2, _⟩ => ⟨S8x64x256x256, .f32⟩
  | .hbm, ⟨3, _⟩ => ⟨S8x32x512x512, .f32⟩
  | .hbm, ⟨4, _⟩ => ⟨S8x512x32x32, .f32⟩
  | .hbm, ⟨5, _⟩ => ⟨S_, .f32⟩
  | .hbm, ⟨6, _⟩ => ⟨S_, .f32⟩
  | .hbm, ⟨7, _⟩ => ⟨S8x256x32x32, .f32⟩
  | .hbm, ⟨8, _⟩ => ⟨S1x8x1x256x1x32x1x32, .f32⟩
  | .hbm, ⟨9, _⟩ => ⟨S1x8x2x256x1x32x1x32, .f32⟩
  | .hbm, ⟨10, _⟩ => ⟨S8x512x32x32, .f32⟩
  | .hbm, ⟨11, _⟩ => ⟨S_, .f32⟩
  | .hbm, ⟨12, _⟩ => ⟨S_, .f32⟩
  | .hbm, ⟨13, _⟩ => ⟨S8x128x32x32, .f32⟩
  | .hbm, ⟨14, _⟩ => ⟨S1x8x1x128x1x32x1x32, .f32⟩
  | .hbm, ⟨15, _⟩ => ⟨S1x8x4x128x1x32x1x32, .f32⟩
  | .hbm, ⟨16, _⟩ => ⟨S8x512x32x32, .f32⟩
  | .hbm, ⟨17, _⟩ => ⟨S_, .f32⟩
  | .hbm, ⟨18, _⟩ => ⟨S_, .f32⟩
  | .hbm, ⟨19, _⟩ => ⟨S8x64x32x32, .f32⟩
  | .hbm, ⟨20, _⟩ => ⟨S1x8x1x64x1x32x1x32, .f32⟩
  | .hbm, ⟨21, _⟩ => ⟨S1x8x8x64x1x32x1x32, .f32⟩
  | .hbm, ⟨22, _⟩ => ⟨S8x512x32x32, .f32⟩
  | .hbm, ⟨23, _⟩ => ⟨S_, .f32⟩
  | .hbm, ⟨24, _⟩ => ⟨S_, .f32⟩
  | .hbm, ⟨25, _⟩ => ⟨S8x32x32x32, .f32⟩
  | .hbm, ⟨26, _⟩ => ⟨S1x8x1x32x1x32x1x32, .f32⟩
  | .hbm, ⟨27, _⟩ => ⟨S1x8x16x32x1x32x1x32, .f32⟩
  | .hbm, ⟨28, _⟩ => ⟨S8x512x32x32, .f32⟩
  | .hbm, ⟨29, _⟩ => ⟨S8x512x32x32, .f32⟩
  | .hbm, ⟨30, _⟩ => ⟨S8x512x32x32, .f32⟩
  | .hbm, ⟨31, _⟩ => ⟨S8x512x32x32, .f32⟩
  | .hbm, ⟨32, _⟩ => ⟨S8x512x32x32, .f32⟩
  | .hbm, ⟨33, _⟩ => ⟨S_, .f32⟩
  | .hbm, ⟨34, _⟩ => ⟨S8x512x32x32, .f32⟩
  | .hbm, ⟨35, _⟩ => ⟨S8x512x32x32, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x256x64x64_S8x256x32x32_w1s1p0_0_w1s1p0_0_w2s2p0_0_w2s2p0_0 : S8x256x64x64.ReduceWindows (![1, 1, 2, 2] : Fin 4 → Nat) ![1, 1, 2, 2] ![0, 0, 0, 0] ![0, 0, 0, 0] S8x256x32x32
  h_S_ : 0 < S_.numel
  shapeCasts_S8x256x32x32_S1x8x1x256x1x32x1x32 : S8x256x32x32.ShapeCasts S1x8x1x256x1x32x1x32
  bcast_S1x8x1x256x1x32x1x32_S1x8x2x256x1x32x1x32_0_1_2_3_4_5_6_7 : S1x8x1x256x1x32x1x32.BroadcastsInDim S1x8x2x256x1x32x1x32 (![0, 1, 2, 3, 4, 5, 6, 7] : Fin 8 → Fin S1x8x2x256x1x32x1x32.rank)
  shapeCasts_S1x8x2x256x1x32x1x32_S8x512x32x32 : S1x8x2x256x1x32x1x32.ShapeCasts S8x512x32x32
  reduceWindows_S8x128x128x128_S8x128x32x32_w1s1p0_0_w1s1p0_0_w4s4p0_0_w4s4p0_0 : S8x128x128x128.ReduceWindows (![1, 1, 4, 4] : Fin 4 → Nat) ![1, 1, 4, 4] ![0, 0, 0, 0] ![0, 0, 0, 0] S8x128x32x32
  shapeCasts_S8x128x32x32_S1x8x1x128x1x32x1x32 : S8x128x32x32.ShapeCasts S1x8x1x128x1x32x1x32
  bcast_S1x8x1x128x1x32x1x32_S1x8x4x128x1x32x1x32_0_1_2_3_4_5_6_7 : S1x8x1x128x1x32x1x32.BroadcastsInDim S1x8x4x128x1x32x1x32 (![0, 1, 2, 3, 4, 5, 6, 7] : Fin 8 → Fin S1x8x4x128x1x32x1x32.rank)
  shapeCasts_S1x8x4x128x1x32x1x32_S8x512x32x32 : S1x8x4x128x1x32x1x32.ShapeCasts S8x512x32x32
  reduceWindows_S8x64x256x256_S8x64x32x32_w1s1p0_0_w1s1p0_0_w8s8p0_0_w8s8p0_0 : S8x64x256x256.ReduceWindows (![1, 1, 8, 8] : Fin 4 → Nat) ![1, 1, 8, 8] ![0, 0, 0, 0] ![0, 0, 0, 0] S8x64x32x32
  shapeCasts_S8x64x32x32_S1x8x1x64x1x32x1x32 : S8x64x32x32.ShapeCasts S1x8x1x64x1x32x1x32
  bcast_S1x8x1x64x1x32x1x32_S1x8x8x64x1x32x1x32_0_1_2_3_4_5_6_7 : S1x8x1x64x1x32x1x32.BroadcastsInDim S1x8x8x64x1x32x1x32 (![0, 1, 2, 3, 4, 5, 6, 7] : Fin 8 → Fin S1x8x8x64x1x32x1x32.rank)
  shapeCasts_S1x8x8x64x1x32x1x32_S8x512x32x32 : S1x8x8x64x1x32x1x32.ShapeCasts S8x512x32x32
  reduceWindows_S8x32x512x512_S8x32x32x32_w1s1p0_0_w1s1p0_0_w16s16p0_0_w16s16p0_0 : S8x32x512x512.ReduceWindows (![1, 1, 16, 16] : Fin 4 → Nat) ![1, 1, 16, 16] ![0, 0, 0, 0] ![0, 0, 0, 0] S8x32x32x32
  shapeCasts_S8x32x32x32_S1x8x1x32x1x32x1x32 : S8x32x32x32.ShapeCasts S1x8x1x32x1x32x1x32
  bcast_S1x8x1x32x1x32x1x32_S1x8x16x32x1x32x1x32_0_1_2_3_4_5_6_7 : S1x8x1x32x1x32x1x32.BroadcastsInDim S1x8x16x32x1x32x1x32 (![0, 1, 2, 3, 4, 5, 6, 7] : Fin 8 → Fin S1x8x16x32x1x32x1x32.rank)
  shapeCasts_S1x8x16x32x1x32x1x32_S8x512x32x32 : S1x8x16x32x1x32x1x32.ShapeCasts S8x512x32x32
  bcast_S_S8x512x32x32 : S_.BroadcastsInDim S8x512x32x32 (![] : Fin 0 → Fin S8x512x32x32.rank)

variable [Facts₀]

class Facts : Prop extends Facts₀ where

variable [Facts]
-- ==== Proof.LibWindowMax.lean ====
/-
  A maximum taken from the bottom element, three ways: a `Finset.fold max ⊥`, a left fold of `max` along the list of
  all indices, and `Finset.sup`. On a linear order with a least element the three agree, so a maximum over a window may
  be taken in any order and any grouping. Also the row-major position of a rank-8 index as one sum of products, for
  reading a reshape through rank 8.
-/
import Idealize.ShloMosaic.PureOps.Ideal.Laws
import Idealize.ShloMosaic.Lib.ValueIdx

namespace Idealize.ShloMosaic

/-- Rank 8: the row-major position as one sum of products (ranks 1 to 6 are the library's). -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace WindowMax

variable {α : Type} [LinearOrder α] [OrderBot α]

/-- A fold of `max` from the least element over a finite set is the set's supremum. -/
theorem fold_max_bot {ι : Type} (s : Finset ι) (f : ι → α) : s.fold max ⊥ f = s.sup f := rfl

/-- A left fold of `max` along a list, from `a`, is `a` joined with the supremum over the list's elements. -/
theorem foldl_max_list {ι : Type} [DecidableEq ι] (f : ι → α) (l : List ι) (a : α) :
    l.foldl (fun r i => max r (f i)) a = max a (l.toFinset.sup f) := by
  induction l generalizing a with
  | nil => simp
  | cons x xs ih =>
    rw [List.foldl_cons, ih, List.toFinset_cons, Finset.sup_insert, max_assoc]

/-- Along the list of ALL indices, from the least element, it is the supremum over every index. -/
theorem foldl_max_finRange {n : Nat} (f : Fin n → α) :
    (List.finRange n).foldl (fun r i => max r (f i)) ⊥ = Finset.univ.sup f := by
  rw [foldl_max_list, List.toFinset_finRange, bot_sup_eq]

/-- The pattern of minus infinity is the least extended real. -/
theorem ofBits_neg_inf : (FloatOps.ofBits (F := Ideal) .f32 0xFF800000#32 : EReal) = ⊥ := by
  simp [Ideal.ofBits_def, Ideal.ofBits, Ideal.ieee]

end WindowMax

end Idealize.ShloMosaic
-- ==== Proof.LibPool.lean ====
/-
  Non-overlapping `k × k` max pooling of a batch of multi-channel images, `[B, C, Hk·k, Wk·k] → [B, C, Hk, Wk]`, as ONE
  function `maxPool` of the array, index by index (the supremum over the window's `k × k` positions), and two programs'
  spellings of it read as that function at the exact extended reals:
   * two passes — split the rows into `(Hk, k)`, take the maximum over the `k`; split the columns into `(Wk, k)`, take
     the maximum over the `k` — each pass a reshape followed by a one-axis maximum from minus infinity (`twoPass_apply`);
   * one windowed reduction with window and stride `[1, 1, k, k]`, no padding, from minus infinity
     (`reduceWindow_apply`).
  Both are a maximum of the same `k²` entries, and `max` is associative, commutative and has minus infinity as its
  unit, so the grouping and the order do not matter. All sizes are parameters.
-/
import proofs.«419399_j83597243450173_3_alg».proof.Proof.LibWindowMax
import Idealize.ShloMosaic.Lib.Pipeline.Value

noncomputable section

namespace Idealize.ShloMosaic.WindowMax

open Idealize.ShloMosaic.ValueIdx

variable {B C H W Hk Wk k : Nat}

/-- Window `h` of `k` consecutive positions lies inside an axis of `Hk * k` positions. -/
theorem win_lt (hH : H = Hk * k) (h : Fin Hk) (i : Fin k) : h.val * k + i.val < H := by
  rw [hH]
  calc h.val * k + i.val < h.val * k + k := Nat.add_lt_add_left i.isLt _
    _ = (h.val + 1) * k := by ring
    _ ≤ Hk * k := Nat.mul_le_mul_right _ h.isLt

/-- The maximum over the `k × k` window at `(h, w)` of each channel's image: windows do not overlap and tile the image. -/
def maxPool (hH : H = Hk * k) (hW : W = Wk * k) (x : (⟨4, ![B, C, H, W]⟩ : Shape).Idx → EReal) :
    (⟨4, ![B, C, Hk, Wk]⟩ : Shape).Idx → EReal :=
  fun j => Finset.univ.sup fun i : Fin k => Finset.univ.sup fun jj : Fin k =>
    x (ix4 (j 0) (j 1) ⟨(j 2).val * k + i.val, win_lt hH (j 2) i⟩ ⟨(j 3).val * k + jj.val, win_lt hW (j 3) jj⟩)

/-- TWO PASSES ARE THE WINDOW MAXIMUM. Rows first: entry `(b, c, h, w')` of the first pass is the maximum over `i < k` of
    the image at row `h·k + i`, column `w'`; then columns: entry `(b, c, h, w)` of the second is the maximum over `jj < k`
    of the first pass at column `w·k + jj`. The two reshapes keep row-major positions, which is what puts row `h·k + i`
    under `(h, i)` and column `w·k + jj` under `(w, jj)`. -/
theorem twoPass_apply (hH : H = Hk * k) (hW : W = Wk * k) (x : FVec Ideal ⟨4, ![B, C, H, W]⟩ .f32)
    (sc1 : (⟨4, ![B, C, H, W]⟩ : Shape).ShapeCasts ⟨5, ![B, C, Hk, k, W]⟩)
    (r1 : (⟨5, ![B, C, Hk, k, W]⟩ : Shape).Reduces [3] ⟨4, ![B, C, Hk, W]⟩)
    (sc2 : (⟨4, ![B, C, Hk, W]⟩ : Shape).ShapeCasts ⟨5, ![B, C, Hk, Wk, k]⟩)
    (r2 : (⟨5, ![B, C, Hk, Wk, k]⟩ : Shape).Reduces [4] ⟨4, ![B, C, Hk, Wk]⟩)
    (hφ1 hφ2 : FKind.Formats .f32) (hacc1 : (0xFF800000#32 : BitVec 32) = FKind.maximumf.neutral .f32 hφ1)
    (hacc2 : (0xFF800000#32 : BitVec 32) = FKind.maximumf.neutral .f32 hφ2)
    (j : (⟨4, ![B, C, Hk, Wk]⟩ : Shape).Idx) :
    multiReduction .maximumf [4] ⟨4, ![B, C, Hk, Wk]⟩
      (shapeCast ⟨5, ![B, C, Hk, Wk, k]⟩
        (multiReduction .maximumf [3] ⟨4, ![B, C, Hk, W]⟩ (shapeCast ⟨5, ![B, C, Hk, k, W]⟩ x sc1) 0xFF800000#32 r1 hφ1 hacc1) sc2)
      0xFF800000#32 r2 hφ2 hacc2 j = maxPool hH hW x j := by
  unfold maxPool
  rw [Ideal.multiReduction_maximumf_single, ofBits_neg_inf, fold_max_bot, Finset.sup_comm]
  show (Finset.univ : Finset (Fin k)).sup (fun jj => _) = _
  refine Finset.sup_congr rfl fun jj _ => ?_
  show shapeCast _ _ sc2 (r2.lift j jj) = _
  have hA : ((⟨4, ![B, C, Hk, W]⟩ : Shape).rowMajor (ix4 (j 0) (j 1) (j 2) ⟨(j 3).val * k + jj.val, win_lt hW (j 3) jj⟩)).val
      = ((⟨5, ![B, C, Hk, Wk, k]⟩ : Shape).rowMajor (r2.lift j jj)).val := by
    rw [Shape.rowMajor_val_four, Shape.rowMajor_val_five]
    show (((j 0).val * C + (j 1).val) * Hk + (j 2).val) * W + ((j 3).val * k + jj.val)
      = ((((j 0).val * C + (j 1).val) * Hk + (j 2).val) * Wk + (j 3).val) * k + jj.val
    rw [hW]; ring
  rw [shapeCast_apply _ sc2 (r2.lift j jj) _ hA]
  rw [Ideal.multiReduction_maximumf_single, ofBits_neg_inf, fold_max_bot]
  show (Finset.univ : Finset (Fin k)).sup (fun i => _) = _
  refine Finset.sup_congr rfl fun i _ => ?_
  refine shapeCast_apply _ sc1 _ _ ?_
  rw [Shape.rowMajor_val_four, Shape.rowMajor_val_five]
  show (((j 0).val * C + (j 1).val) * H + ((j 2).val * k + i.val)) * W + ((j 3).val * k + jj.val)
    = ((((j 0).val * C + (j 1).val) * Hk + (j 2).val) * k + i.val) * W + ((j 3).val * k + jj.val)
  rw [hH]; ring

/-- The window's own shape: one position on the batch and channel axes, `k × k` on the image's. -/
abbrev winShape (k : Nat) : Shape := ⟨4, ![1, 1, k, k]⟩

/-- ONE WINDOWED REDUCTION IS THE WINDOW MAXIMUM. With no padding every position of every window lies inside the image,
    so the reduction's fold from minus infinity runs over exactly the window's `k²` entries: batch and channel fixed
    (the window has one position there), row `h·k + i`, column `w·k + jj`. -/
theorem reduceWindow_apply (hH : H = Hk * k) (hW : W = Wk * k) (x : (⟨4, ![B, C, H, W]⟩ : Shape).Idx → EReal)
    (init : (⟨0, ![]⟩ : Shape).Idx → EReal) (hinit : ∀ i, init i = ⊥)
    (h : (⟨4, ![B, C, H, W]⟩ : Shape).ReduceWindows ![1, 1, k, k] ![1, 1, k, k] ![0, 0, 0, 0] ![0, 0, 0, 0] ⟨4, ![B, C, Hk, Wk]⟩)
    (hu : 0 < (⟨0, ![]⟩ : Shape).numel) (j : (⟨4, ![B, C, Hk, Wk]⟩ : Shape).Idx) :
    Host.reduceWindow (FloatOps.maximumf (F := Ideal) (φ := .f32)) ![1, 1, k, k] ![1, 1, k, k] ![0, 0, 0, 0] ![0, 0, 0, 0] x init h hu j
      = maxPool hH hW x j := by
  unfold Host.reduceWindow maxPool
  simp only [hinit, Ideal.maximumf_def]
  rw [foldl_max_finRange]
  -- every position of the window is inside the image: the guard's first branch is the one taken
  refine (Finset.sup_congr (g := fun n => x (ix4 (j 0) (j 1)
      ⟨(j 2).val * k + ((⟨4, ![1, 1, k, k]⟩ : Shape).rowMajor.symm n 2).val, win_lt hH (j 2) ((⟨4, ![1, 1, k, k]⟩ : Shape).rowMajor.symm n 2)⟩
      ⟨(j 3).val * k + ((⟨4, ![1, 1, k, k]⟩ : Shape).rowMajor.symm n 3).val, win_lt hW (j 3) ((⟨4, ![1, 1, k, k]⟩ : Shape).rowMajor.symm n 3)⟩))
    rfl fun n _ => ?_).trans ?_
  · have h0 : ((winShape k).rowMajor.symm n 0).val = 0 := Nat.lt_one_iff.mp ((winShape k).rowMajor.symm n 0).isLt
    have h1 : ((winShape k).rowMajor.symm n 1).val = 0 := Nat.lt_one_iff.mp ((winShape k).rowMajor.symm n 1).isLt
    have hj0 : (j 0).val < B := (j 0).isLt
    have hj1 : (j 1).val < C := (j 1).isLt
    have hw2 := win_lt hH (j 2) ((winShape k).rowMajor.symm n 2)
    have hw3 := win_lt hW (j 3) ((winShape k).rowMajor.symm n 3)
    split
    · refine congrArg x (funext fun a => Fin.ext ?_)
      match a with
      | ⟨0, _⟩ => show (j 0).val * 1 + ((winShape k).rowMajor.symm n 0).val - 0 = (j 0).val; omega
      | ⟨1, _⟩ => show (j 1).val * 1 + ((winShape k).rowMajor.symm n 1).val - 0 = (j 1).val; omega
      | ⟨2, _⟩ =>
        show (j 2).val * k + ((winShape k).rowMajor.symm n 2).val - 0 = (j 2).val * k + ((winShape k).rowMajor.symm n 2).val
        omega
      | ⟨3, _⟩ =>
        show (j 3).val * k + ((winShape k).rowMajor.symm n 3).val - 0 = (j 3).val * k + ((winShape k).rowMajor.symm n 3).val
        omega
    · rename_i hnin
      refine absurd (fun a => ?_) hnin
      match a with
      | ⟨0, _⟩ => exact ⟨Nat.zero_le _, by show (j 0).val * 1 + ((winShape k).rowMajor.symm n 0).val - 0 < B; omega⟩
      | ⟨1, _⟩ => exact ⟨Nat.zero_le _, by show (j 1).val * 1 + ((winShape k).rowMajor.symm n 1).val - 0 < C; omega⟩
      | ⟨2, _⟩ => exact ⟨Nat.zero_le _, by show (j 2).val * k + ((winShape k).rowMajor.symm n 2).val - 0 < H; omega⟩
      | ⟨3, _⟩ => exact ⟨Nat.zero_le _, by show (j 3).val * k + ((winShape k).rowMajor.symm n 3).val - 0 < W; omega⟩
  · apply le_antisymm
    · refine Finset.sup_le fun n _ => ?_
      exact le_trans
        (Finset.le_sup (f := fun jj : Fin k => x (ix4 (j 0) (j 1)
            ⟨(j 2).val * k + ((⟨4, ![1, 1, k, k]⟩ : Shape).rowMajor.symm n 2).val, win_lt hH (j 2) ((⟨4, ![1, 1, k, k]⟩ : Shape).rowMajor.symm n 2)⟩
            ⟨(j 3).val * k + jj.val, win_lt hW (j 3) jj⟩))
          (Finset.mem_univ ((⟨4, ![1, 1, k, k]⟩ : Shape).rowMajor.symm n 3)))
        (Finset.le_sup (f := fun i : Fin k => Finset.univ.sup fun jj : Fin k => x (ix4 (j 0) (j 1)
            ⟨(j 2).val * k + i.val, win_lt hH (j 2) i⟩ ⟨(j 3).val * k + jj.val, win_lt hW (j 3) jj⟩))
          (Finset.mem_univ ((⟨4, ![1, 1, k, k]⟩ : Shape).rowMajor.symm n 2)))
    · refine Finset.sup_le fun i _ => Finset.sup_le fun jj _ => ?_
      refine le_trans (le_of_eq ?_) (Finset.le_sup (Finset.mem_univ
        ((⟨4, ![1, 1, k, k]⟩ : Shape).rowMajor (ix4 (⟨0, Nat.one_pos⟩ : Fin 1) (⟨0, Nat.one_pos⟩ : Fin 1) i jj))))
      simp only [Equiv.symm_apply_apply]
      rfl

end Idealize.ShloMosaic.WindowMax

end
-- ==== Proof.Spec.lean ====
/-
  What both programs compute, as one function of the five argument arrays.

  Four feature maps of the same batch, at resolutions 64, 128, 256 and 512 with 256, 128, 64 and 32 channels, are each
  max-pooled down to 32 × 32 (windows of side 2, 4, 8 and 16, no overlap); each pooled map is then repeated along the
  channel axis until it has 512 channels — so output channel `ch` reads pooled channel `ch mod 256`, `ch mod 128`,
  `ch mod 64`, `ch mod 32` —; the four are added, in that order, to a fifth array of 512 channels, and the sum is clamped
  below at zero. Over the extended reals, entry by entry.
-/
import proofs.«419399_j83597243450173_3_alg».proof.Proof.LibPool

noncomputable section

namespace Cert.Spec

open Idealize.ShloMosaic Idealize.ShloMosaic.ValueIdx Idealize.ShloMosaic.WindowMax

/-- The 64 × 64 maps pooled by windows of side 2. -/
def P1 (x : (⟨4, ![8, 256, 64, 64]⟩ : Shape).Idx → EReal) : (⟨4, ![8, 256, 32, 32]⟩ : Shape).Idx → EReal :=
  maxPool (k := 2) rfl rfl x
/-- The 128 × 128 maps pooled by windows of side 4. -/
def P2 (x : (⟨4, ![8, 128, 128, 128]⟩ : Shape).Idx → EReal) : (⟨4, ![8, 128, 32, 32]⟩ : Shape).Idx → EReal :=
  maxPool (k := 4) rfl rfl x
/-- The 256 × 256 maps pooled by windows of side 8. -/
def P3 (x : (⟨4, ![8, 64, 256, 256]⟩ : Shape).Idx → EReal) : (⟨4, ![8, 64, 32, 32]⟩ : Shape).Idx → EReal :=
  maxPool (k := 8) rfl rfl x
/-- The 512 × 512 maps pooled by windows of side 16. -/
def P4 (x : (⟨4, ![8, 32, 512, 512]⟩ : Shape).Idx → EReal) : (⟨4, ![8, 32, 32, 32]⟩ : Shape).Idx → EReal :=
  maxPool (k := 16) rfl rfl x

/-- Channel `ch` of an array repeated along its channel axis up to 512 channels: the index with the channel reduced
    modulo the array's own channel count `C`. -/
abbrev wrap (C : Nat) (hC : 0 < C) (i : (⟨4, ![8, 512, 32, 32]⟩ : Shape).Idx) : (⟨4, ![8, C, 32, 32]⟩ : Shape).Idx :=
  ix4 (i 0) ⟨(i 1).val % C, Nat.mod_lt _ hC⟩ (i 2) (i 3)

/-- The four pooled maps, each repeated to 512 channels, added in order to the fifth array, and clamped at zero. -/
def combine (p1 : (⟨4, ![8, 256, 32, 32]⟩ : Shape).Idx → EReal) (p2 : (⟨4, ![8, 128, 32, 32]⟩ : Shape).Idx → EReal)
    (p3 : (⟨4, ![8, 64, 32, 32]⟩ : Shape).Idx → EReal) (p4 : (⟨4, ![8, 32, 32, 32]⟩ : Shape).Idx → EReal)
    (x4 : (⟨4, ![8, 512, 32, 32]⟩ : Shape).Idx → EReal) : (⟨4, ![8, 512, 32, 32]⟩ : Shape).Idx → EReal :=
  fun i => max (p1 (wrap 256 (by decide) i) + p2 (wrap 128 (by decide) i) + p3 (wrap 64 (by decide) i) + p4 (wrap 32 (by decide) i) + x4 i) 0

/-- The result, as one function of the five argument arrays. -/
def G (x0 : (⟨4, ![8, 256, 64, 64]⟩ : Shape).Idx → EReal) (x1 : (⟨4, ![8, 128, 128, 128]⟩ : Shape).Idx → EReal)
    (x2 : (⟨4, ![8, 64, 256, 256]⟩ : Shape).Idx → EReal) (x3 : (⟨4, ![8, 32, 512, 512]⟩ : Shape).Idx → EReal)
    (x4 : (⟨4, ![8, 512, 32, 32]⟩ : Shape).Idx → EReal) : (⟨4, ![8, 512, 32, 32]⟩ : Shape).Idx → EReal :=
  combine (P1 x0) (P2 x1) (P3 x2) (P4 x3) x4

end Cert.Spec

end
-- ==== Proof.Region0.lean ====
/-
  REGION 0: maps of side 64 with 256 channels, pooled by windows of side 2; each of the 64 grid points takes 4 channel(s).
  The body's two-pass maximum of a block is the window maximum of the block; point `t`'s block of the input is the array
  read at that point's channels, and the window at `(h, w)` of one of those channels of the array is the window at
  `(h, w)` of the same channel of the block; the points' output blocks tile the pooled array. So the region leaves in
  its output array the pooled array `P1` of its input array, whatever the buffers held when it was entered.
-/
import proofs.«419399_j83597243450173_3_alg».proof.Proof.Gen.KernelIdeal.Frame
import proofs.«419399_j83597243450173_3_alg».proof.Proof.Spec

set_option maxRecDepth 16384

noncomputable section

namespace Cert.KernelIdeal.Region0

open Cert.KernelIdeal Cert.KernelIdeal.Gen Cert.Spec
open Idealize.ShloMosaic Idealize.ShloMosaic.TcCoe Idealize.SL.Sem Idealize.ShloMosaic.ValueIdx Idealize.ShloMosaic.WindowMax
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The window maximum of one point's block. -/
def poolBlk (x : (⟨4, ![8, 4, 64, 64]⟩ : Shape).Idx → EReal) : (⟨4, ![8, 4, 32, 32]⟩ : Shape).Idx → EReal :=
  maxPool (k := 2) rfl rfl x

/-- The body's payload is the window maximum of the block it loads. -/
theorem pay (x0 : Vec Ideal S8x4x64x64 .f32) : k0_pay1 x0 = poolBlk x0 := by
  funext j
  unfold k0_pay1 poolBlk
  exact twoPass_apply (B := 8) (C := 4) (H := 64) (W := 64) (Hk := 32) (Wk := 32) (k := 2) rfl rfl x0 _ _ _ _ _ _ _ _ j

/-- Pooling commutes with taking a channel block: if a block `x` is the array `X` at point `tt`'s channels, the block's
    pooled entry at its channel `c'` is the array's pooled entry at that channel of the array (a window stays inside its
    own channel's image). -/
theorem poolBlk_of_block (x : (⟨4, ![8, 4, 64, 64]⟩ : Shape).Idx → EReal) (X : (⟨4, ![8, 256, 64, 64]⟩ : Shape).Idx → EReal)
    (tt : Nat) (htt : tt < 64)
    (hx : ∀ (b : Fin 8) (c' : Fin 4) (r : Fin 64) (s : Fin 64), x (ix4 b c' r s) = X (ix4 b ⟨tt * 4 + c'.val, by omega⟩ r s))
    (b : Fin 8) (c' : Fin 4) (h : Fin 32) (w : Fin 32) :
    poolBlk x (ix4 b c' h w) = P1 X (ix4 b ⟨tt * 4 + c'.val, by omega⟩ h w) := by
  unfold poolBlk P1 maxPool
  refine Finset.sup_congr rfl fun i _ => Finset.sup_congr rfl fun jj _ => ?_
  exact hx b c' _ _

/-- The index maps over the grid: point `t` takes channel block `t` of the input and of the output, and all of every
    other axis. -/
theorem idx : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)

/-- What point `t` writes back is block `t` of the pooled input array. -/
theorem flushed (c : Dev nD) (t : Fin cfg0.N) :
    (dat0 V c).flushed 1 t = ((cfg0.win 1).blk t).view.read (Elt Ideal) (P1 (V c main_arg0)) := by
  show (cfg0.win 1).cut (grid0.coords t) ((dat0 V c).after 1 t) = _
  rw [after0_1]
  unfold out0_1
  rw [View.canon_unit_zero hz]
  simp only [View.ld_unit_zero (S := S8x4x64x64) hz]
  rw [pay]
  obtain ⟨e0, e1, e2, e3, f0, f1, f2, f3⟩ := idx t
  have ht : t.val < 64 := lt_of_lt_of_eq t.isLt N_0
  funext y
  obtain ⟨b, c', h, w, rfl⟩ : ∃ (b : Fin 8) (c' : Fin 4) (h : Fin 32) (w : Fin 32), y = ix4 b c' h w :=
    ⟨y 0, y 1, y 2, y 3, eq_ix4 y⟩
  refine (poolBlk_of_block (iblk0 V c 0 t) (V c main_arg0) t.val ht (fun b c' r s => ?_) b c' h w).trans ?_
  · -- the input block at the point: the array at the point's channels
    show V c main_arg0 (((cfg0.win 0).blk t).view.emb (ix4 b c' r s)) = V c main_arg0 (ix4 b ⟨t.val * 4 + c'.val, by omega⟩ r s)
    refine congrArg (V c main_arg0) (funext fun a => Fin.ext ?_)
    match a with
    | ⟨0, _⟩ => show win0_0.index t (0 : Fin 4) * 8 + 1 * b.val = b.val; omega
    | ⟨1, _⟩ => show win0_0.index t (1 : Fin 4) * 4 + 1 * c'.val = t.val * 4 + c'.val; omega
    | ⟨2, _⟩ => show win0_0.index t (2 : Fin 4) * 64 + 1 * r.val = r.val; omega
    | ⟨3, _⟩ => show win0_0.index t (3 : Fin 4) * 64 + 1 * s.val = s.val; omega
  · -- the output block at the point: the pooled array at the same channels
    show P1 (V c main_arg0) (ix4 b ⟨t.val * 4 + c'.val, by omega⟩ h w) = P1 (V c main_arg0) (((cfg0.win 1).blk t).view.emb (ix4 b c' h w))
    refine congrArg (P1 (V c main_arg0)) (funext fun a => Fin.ext ?_)
    match a with
    | ⟨0, _⟩ => show b.val = win0_1.index t (0 : Fin 4) * 8 + 1 * b.val; omega
    | ⟨1, _⟩ => show t.val * 4 + c'.val = win0_1.index t (1 : Fin 4) * 4 + 1 * c'.val; omega
    | ⟨2, _⟩ => show h.val = win0_1.index t (2 : Fin 4) * 32 + 1 * h.val; omega
    | ⟨3, _⟩ => show w.val = win0_1.index t (3 : Fin 4) * 32 + 1 * w.val; omega

/-- An index of the pooled array is in point `t`'s output block iff each coordinate is in the block's range on its axis. -/
theorem mem_blk (t : Fin cfg0.N) (i : S8x256x32x32.Idx) :
    i ∈ ((cfg0.win 1).blk t).view.set ↔ ∀ a : Fin 4, win0_1.index t a * S8x4x32x32.size a ≤ (i a).val
      ∧ (i a).val < win0_1.index t a * S8x4x32x32.size a + S8x4x32x32.size a := by
  show i ∈ ((View.whole main_v0).slice (win0_1.rect t)).set ↔ _
  rw [View.set_slice_whole, Rect.mem_set_unit]
  exact Iff.rfl

/-- Every index of the pooled array is in some point's output block: each channel is written by the point that takes it. -/
theorem cover (i : S8x256x32x32.Idx) :
    ∃ t : Fin cfg0.N, (cfg0.win 1).flush t = true ∧ i ∈ ((cfg0.win 1).blk t).view.set := by
  have hi0 : (i 0).val < 8 := (i 0).isLt
  have hi1 : (i 1).val < 256 := (i 1).isLt
  have hi2 : (i 2).val < 32 := (i 2).isLt
  have hi3 : (i 3).val < 32 := (i 3).isLt
  have hN : (i 1).val / 4 < cfg0.N := lt_of_lt_of_eq (by omega) N_0.symm
  obtain ⟨-, -, -, -, f0, f1, f2, f3⟩ := idx ⟨(i 1).val / 4, hN⟩
  have f1' : win0_1.index ⟨(i 1).val / 4, hN⟩ (1 : Fin 4) = (i 1).val / 4 := f1
  refine ⟨⟨(i 1).val / 4, hN⟩, flush0_1 _, ?_⟩
  rw [mem_blk]
  intro a
  match a with
  | ⟨0, _⟩ =>
    show win0_1.index ⟨(i 1).val / 4, hN⟩ (0 : Fin 4) * 8 ≤ (i 0).val ∧ (i 0).val < win0_1.index ⟨(i 1).val / 4, hN⟩ (0 : Fin 4) * 8 + 8
    omega
  | ⟨1, _⟩ =>
    show win0_1.index ⟨(i 1).val / 4, hN⟩ (1 : Fin 4) * 4 ≤ (i 1).val ∧ (i 1).val < win0_1.index ⟨(i 1).val / 4, hN⟩ (1 : Fin 4) * 4 + 4
    omega
  | ⟨2, _⟩ =>
    show win0_1.index ⟨(i 1).val / 4, hN⟩ (2 : Fin 4) * 32 ≤ (i 2).val ∧ (i 2).val < win0_1.index ⟨(i 1).val / 4, hN⟩ (2 : Fin 4) * 32 + 32
    omega
  | ⟨3, _⟩ =>
    show win0_1.index ⟨(i 1).val / 4, hN⟩ (3 : Fin 4) * 32 ≤ (i 3).val ∧ (i 3).val < win0_1.index ⟨(i 1).val / 4, hN⟩ (3 : Fin 4) * 32 + 32
    omega

/-- THE REGION'S OUTPUT ARRAY after its run is the pooled input array, whatever the buffers held at entry. -/
theorem final (c : Dev nD) : (dat0 V c).arrAt 1 cfg0.N = P1 (V c main_arg0) :=
  (dat0 V c).arrAt_eq_of_cover 1 (P1 (V c main_arg0)) (fun t _ => flushed V c t) cover

end Cert.KernelIdeal.Region0

end
-- ==== Proof.Region1.lean ====
/-
  REGION 1: maps of side 128 with 128 channels, pooled by windows of side 4; each of the 32 grid points takes 4 channel(s).
  The body's two-pass maximum of a block is the window maximum of the block; point `t`'s block of the input is the array
  read at that point's channels, and the window at `(h, w)` of one of those channels of the array is the window at
  `(h, w)` of the same channel of the block; the points' output blocks tile the pooled array. So the region leaves in
  its output array the pooled array `P2` of its input array, whatever the buffers held when it was entered.
-/
import proofs.«419399_j83597243450173_3_alg».proof.Proof.Gen.KernelIdeal.Frame
import proofs.«419399_j83597243450173_3_alg».proof.Proof.Spec

set_option maxRecDepth 16384

noncomputable section

namespace Cert.KernelIdeal.Region1

open Cert.KernelIdeal Cert.KernelIdeal.Gen Cert.Spec
open Idealize.ShloMosaic Idealize.ShloMosaic.TcCoe Idealize.SL.Sem Idealize.ShloMosaic.ValueIdx Idealize.ShloMosaic.WindowMax
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The window maximum of one point's block. -/
def poolBlk (x : (⟨4, ![8, 4, 128, 128]⟩ : Shape).Idx → EReal) : (⟨4, ![8, 4, 32, 32]⟩ : Shape).Idx → EReal :=
  maxPool (k := 4) rfl rfl x

/-- The body's payload is the window maximum of the block it loads. -/
theorem pay (x0 : Vec Ideal S8x4x128x128 .f32) : k1_pay1 x0 = poolBlk x0 := by
  funext j
  unfold k1_pay1 poolBlk
  exact twoPass_apply (B := 8) (C := 4) (H := 128) (W := 128) (Hk := 32) (Wk := 32) (k := 4) rfl rfl x0 _ _ _ _ _ _ _ _ j

/-- Pooling commutes with taking a channel block: if a block `x` is the array `X` at point `tt`'s channels, the block's
    pooled entry at its channel `c'` is the array's pooled entry at that channel of the array (a window stays inside its
    own channel's image). -/
theorem poolBlk_of_block (x : (⟨4, ![8, 4, 128, 128]⟩ : Shape).Idx → EReal) (X : (⟨4, ![8, 128, 128, 128]⟩ : Shape).Idx → EReal)
    (tt : Nat) (htt : tt < 32)
    (hx : ∀ (b : Fin 8) (c' : Fin 4) (r : Fin 128) (s : Fin 128), x (ix4 b c' r s) = X (ix4 b ⟨tt * 4 + c'.val, by omega⟩ r s))
    (b : Fin 8) (c' : Fin 4) (h : Fin 32) (w : Fin 32) :
    poolBlk x (ix4 b c' h w) = P2 X (ix4 b ⟨tt * 4 + c'.val, by omega⟩ h w) := by
  unfold poolBlk P2 maxPool
  refine Finset.sup_congr rfl fun i _ => Finset.sup_congr rfl fun jj _ => ?_
  exact hx b c' _ _

/-- The index maps over the grid: point `t` takes channel block `t` of the input and of the output, and all of every
    other axis. -/
theorem idx : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 4) = 0 ∧ win1_1.index t (1 : Fin 4) = t.val ∧ win1_1.index t (2 : Fin 4) = 0 ∧ win1_1.index t (3 : Fin 4) = 0 :=
  (by decide +kernel : ∀ t : Fin grid1.N, _)

/-- What point `t` writes back is block `t` of the pooled input array. -/
theorem flushed (c : Dev nD) (t : Fin cfg1.N) :
    (dat1 V c).flushed 1 t = ((cfg1.win 1).blk t).view.read (Elt Ideal) (P2 (V c main_arg1)) := by
  show (cfg1.win 1).cut (grid1.coords t) ((dat1 V c).after 1 t) = _
  rw [after1_1]
  unfold out1_1
  rw [View.canon_unit_zero hz]
  simp only [View.ld_unit_zero (S := S8x4x128x128) hz]
  rw [pay]
  obtain ⟨e0, e1, e2, e3, f0, f1, f2, f3⟩ := idx t
  have ht : t.val < 32 := lt_of_lt_of_eq t.isLt N_1
  funext y
  obtain ⟨b, c', h, w, rfl⟩ : ∃ (b : Fin 8) (c' : Fin 4) (h : Fin 32) (w : Fin 32), y = ix4 b c' h w :=
    ⟨y 0, y 1, y 2, y 3, eq_ix4 y⟩
  refine (poolBlk_of_block (iblk1 V c 0 t) (V c main_arg1) t.val ht (fun b c' r s => ?_) b c' h w).trans ?_
  · -- the input block at the point: the array at the point's channels
    show V c main_arg1 (((cfg1.win 0).blk t).view.emb (ix4 b c' r s)) = V c main_arg1 (ix4 b ⟨t.val * 4 + c'.val, by omega⟩ r s)
    refine congrArg (V c main_arg1) (funext fun a => Fin.ext ?_)
    match a with
    | ⟨0, _⟩ => show win1_0.index t (0 : Fin 4) * 8 + 1 * b.val = b.val; omega
    | ⟨1, _⟩ => show win1_0.index t (1 : Fin 4) * 4 + 1 * c'.val = t.val * 4 + c'.val; omega
    | ⟨2, _⟩ => show win1_0.index t (2 : Fin 4) * 128 + 1 * r.val = r.val; omega
    | ⟨3, _⟩ => show win1_0.index t (3 : Fin 4) * 128 + 1 * s.val = s.val; omega
  · -- the output block at the point: the pooled array at the same channels
    show P2 (V c main_arg1) (ix4 b ⟨t.val * 4 + c'.val, by omega⟩ h w) = P2 (V c main_arg1) (((cfg1.win 1).blk t).view.emb (ix4 b c' h w))
    refine congrArg (P2 (V c main_arg1)) (funext fun a => Fin.ext ?_)
    match a with
    | ⟨0, _⟩ => show b.val = win1_1.index t (0 : Fin 4) * 8 + 1 * b.val; omega
    | ⟨1, _⟩ => show t.val * 4 + c'.val = win1_1.index t (1 : Fin 4) * 4 + 1 * c'.val; omega
    | ⟨2, _⟩ => show h.val = win1_1.index t (2 : Fin 4) * 32 + 1 * h.val; omega
    | ⟨3, _⟩ => show w.val = win1_1.index t (3 : Fin 4) * 32 + 1 * w.val; omega

/-- An index of the pooled array is in point `t`'s output block iff each coordinate is in the block's range on its axis. -/
theorem mem_blk (t : Fin cfg1.N) (i : S8x128x32x32.Idx) :
    i ∈ ((cfg1.win 1).blk t).view.set ↔ ∀ a : Fin 4, win1_1.index t a * S8x4x32x32.size a ≤ (i a).val
      ∧ (i a).val < win1_1.index t a * S8x4x32x32.size a + S8x4x32x32.size a := by
  show i ∈ ((View.whole main_v1).slice (win1_1.rect t)).set ↔ _
  rw [View.set_slice_whole, Rect.mem_set_unit]
  exact Iff.rfl

/-- Every index of the pooled array is in some point's output block: each channel is written by the point that takes it. -/
theorem cover (i : S8x128x32x32.Idx) :
    ∃ t : Fin cfg1.N, (cfg1.win 1).flush t = true ∧ i ∈ ((cfg1.win 1).blk t).view.set := by
  have hi0 : (i 0).val < 8 := (i 0).isLt
  have hi1 : (i 1).val < 128 := (i 1).isLt
  have hi2 : (i 2).val < 32 := (i 2).isLt
  have hi3 : (i 3).val < 32 := (i 3).isLt
  have hN : (i 1).val / 4 < cfg1.N := lt_of_lt_of_eq (by omega) N_1.symm
  obtain ⟨-, -, -, -, f0, f1, f2, f3⟩ := idx ⟨(i 1).val / 4, hN⟩
  have f1' : win1_1.index ⟨(i 1).val / 4, hN⟩ (1 : Fin 4) = (i 1).val / 4 := f1
  refine ⟨⟨(i 1).val / 4, hN⟩, flush1_1 _, ?_⟩
  rw [mem_blk]
  intro a
  match a with
  | ⟨0, _⟩ =>
    show win1_1.index ⟨(i 1).val / 4, hN⟩ (0 : Fin 4) * 8 ≤ (i 0).val ∧ (i 0).val < win1_1.index ⟨(i 1).val / 4, hN⟩ (0 : Fin 4) * 8 + 8
    omega
  | ⟨1, _⟩ =>
    show win1_1.index ⟨(i 1).val / 4, hN⟩ (1 : Fin 4) * 4 ≤ (i 1).val ∧ (i 1).val < win1_1.index ⟨(i 1).val / 4, hN⟩ (1 : Fin 4) * 4 + 4
    omega
  | ⟨2, _⟩ =>
    show win1_1.index ⟨(i 1).val / 4, hN⟩ (2 : Fin 4) * 32 ≤ (i 2).val ∧ (i 2).val < win1_1.index ⟨(i 1).val / 4, hN⟩ (2 : Fin 4) * 32 + 32
    omega
  | ⟨3, _⟩ =>
    show win1_1.index ⟨(i 1).val / 4, hN⟩ (3 : Fin 4) * 32 ≤ (i 3).val ∧ (i 3).val < win1_1.index ⟨(i 1).val / 4, hN⟩ (3 : Fin 4) * 32 + 32
    omega

/-- THE REGION'S OUTPUT ARRAY after its run is the pooled input array, whatever the buffers held at entry. -/
theorem final (c : Dev nD) : (dat1 V c).arrAt 1 cfg1.N = P2 (V c main_arg1) :=
  (dat1 V c).arrAt_eq_of_cover 1 (P2 (V c main_arg1)) (fun t _ => flushed V c t) cover

end Cert.KernelIdeal.Region1

end
-- ==== Proof.Region2.lean ====
/-
  REGION 2: maps of side 256 with 64 channels, pooled by windows of side 8; each of the 16 grid points takes 4 channel(s).
  The body's two-pass maximum of a block is the window maximum of the block; point `t`'s block of the input is the array
  read at that point's channels, and the window at `(h, w)` of one of those channels of the array is the window at
  `(h, w)` of the same channel of the block; the points' output blocks tile the pooled array. So the region leaves in
  its output array the pooled array `P3` of its input array, whatever the buffers held when it was entered.
-/
import proofs.«419399_j83597243450173_3_alg».proof.Proof.Gen.KernelIdeal.Frame
import proofs.«419399_j83597243450173_3_alg».proof.Proof.Spec

set_option maxRecDepth 16384

noncomputable section

namespace Cert.KernelIdeal.Region2

open Cert.KernelIdeal Cert.KernelIdeal.Gen Cert.Spec
open Idealize.ShloMosaic Idealize.ShloMosaic.TcCoe Idealize.SL.Sem Idealize.ShloMosaic.ValueIdx Idealize.ShloMosaic.WindowMax
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The window maximum of one point's block. -/
def poolBlk (x : (⟨4, ![8, 4, 256, 256]⟩ : Shape).Idx → EReal) : (⟨4, ![8, 4, 32, 32]⟩ : Shape).Idx → EReal :=
  maxPool (k := 8) rfl rfl x

/-- The body's payload is the window maximum of the block it loads. -/
theorem pay (x0 : Vec Ideal S8x4x256x256 .f32) : k2_pay1 x0 = poolBlk x0 := by
  funext j
  unfold k2_pay1 poolBlk
  exact twoPass_apply (B := 8) (C := 4) (H := 256) (W := 256) (Hk := 32) (Wk := 32) (k := 8) rfl rfl x0 _ _ _ _ _ _ _ _ j

/-- Pooling commutes with taking a channel block: if a block `x` is the array `X` at point `tt`'s channels, the block's
    pooled entry at its channel `c'` is the array's pooled entry at that channel of the array (a window stays inside its
    own channel's image). -/
theorem poolBlk_of_block (x : (⟨4, ![8, 4, 256, 256]⟩ : Shape).Idx → EReal) (X : (⟨4, ![8, 64, 256, 256]⟩ : Shape).Idx → EReal)
    (tt : Nat) (htt : tt < 16)
    (hx : ∀ (b : Fin 8) (c' : Fin 4) (r : Fin 256) (s : Fin 256), x (ix4 b c' r s) = X (ix4 b ⟨tt * 4 + c'.val, by omega⟩ r s))
    (b : Fin 8) (c' : Fin 4) (h : Fin 32) (w : Fin 32) :
    poolBlk x (ix4 b c' h w) = P3 X (ix4 b ⟨tt * 4 + c'.val, by omega⟩ h w) := by
  unfold poolBlk P3 maxPool
  refine Finset.sup_congr rfl fun i _ => Finset.sup_congr rfl fun jj _ => ?_
  exact hx b c' _ _

/-- The index maps over the grid: point `t` takes channel block `t` of the input and of the output, and all of every
    other axis. -/
theorem idx : ∀ t : Fin cfg2.N,
    win2_0.index t (0 : Fin 4) = 0 ∧ win2_0.index t (1 : Fin 4) = t.val ∧ win2_0.index t (2 : Fin 4) = 0 ∧ win2_0.index t (3 : Fin 4) = 0
    ∧ win2_1.index t (0 : Fin 4) = 0 ∧ win2_1.index t (1 : Fin 4) = t.val ∧ win2_1.index t (2 : Fin 4) = 0 ∧ win2_1.index t (3 : Fin 4) = 0 :=
  (by decide +kernel : ∀ t : Fin grid2.N, _)

/-- What point `t` writes back is block `t` of the pooled input array. -/
theorem flushed (c : Dev nD) (t : Fin cfg2.N) :
    (dat2 V c).flushed 1 t = ((cfg2.win 1).blk t).view.read (Elt Ideal) (P3 (V c main_arg2)) := by
  show (cfg2.win 1).cut (grid2.coords t) ((dat2 V c).after 1 t) = _
  rw [after2_1]
  unfold out2_1
  rw [View.canon_unit_zero hz]
  simp only [View.ld_unit_zero (S := S8x4x256x256) hz]
  rw [pay]
  obtain ⟨e0, e1, e2, e3, f0, f1, f2, f3⟩ := idx t
  have ht : t.val < 16 := lt_of_lt_of_eq t.isLt N_2
  funext y
  obtain ⟨b, c', h, w, rfl⟩ : ∃ (b : Fin 8) (c' : Fin 4) (h : Fin 32) (w : Fin 32), y = ix4 b c' h w :=
    ⟨y 0, y 1, y 2, y 3, eq_ix4 y⟩
  refine (poolBlk_of_block (iblk2 V c 0 t) (V c main_arg2) t.val ht (fun b c' r s => ?_) b c' h w).trans ?_
  · -- the input block at the point: the array at the point's channels
    show V c main_arg2 (((cfg2.win 0).blk t).view.emb (ix4 b c' r s)) = V c main_arg2 (ix4 b ⟨t.val * 4 + c'.val, by omega⟩ r s)
    refine congrArg (V c main_arg2) (funext fun a => Fin.ext ?_)
    match a with
    | ⟨0, _⟩ => show win2_0.index t (0 : Fin 4) * 8 + 1 * b.val = b.val; omega
    | ⟨1, _⟩ => show win2_0.index t (1 : Fin 4) * 4 + 1 * c'.val = t.val * 4 + c'.val; omega
    | ⟨2, _⟩ => show win2_0.index t (2 : Fin 4) * 256 + 1 * r.val = r.val; omega
    | ⟨3, _⟩ => show win2_0.index t (3 : Fin 4) * 256 + 1 * s.val = s.val; omega
  · -- the output block at the point: the pooled array at the same channels
    show P3 (V c main_arg2) (ix4 b ⟨t.val * 4 + c'.val, by omega⟩ h w) = P3 (V c main_arg2) (((cfg2.win 1).blk t).view.emb (ix4 b c' h w))
    refine congrArg (P3 (V c main_arg2)) (funext fun a => Fin.ext ?_)
    match a with
    | ⟨0, _⟩ => show b.val = win2_1.index t (0 : Fin 4) * 8 + 1 * b.val; omega
    | ⟨1, _⟩ => show t.val * 4 + c'.val = win2_1.index t (1 : Fin 4) * 4 + 1 * c'.val; omega
    | ⟨2, _⟩ => show h.val = win2_1.index t (2 : Fin 4) * 32 + 1 * h.val; omega
    | ⟨3, _⟩ => show w.val = win2_1.index t (3 : Fin 4) * 32 + 1 * w.val; omega

/-- An index of the pooled array is in point `t`'s output block iff each coordinate is in the block's range on its axis. -/
theorem mem_blk (t : Fin cfg2.N) (i : S8x64x32x32.Idx) :
    i ∈ ((cfg2.win 1).blk t).view.set ↔ ∀ a : Fin 4, win2_1.index t a * S8x4x32x32.size a ≤ (i a).val
      ∧ (i a).val < win2_1.index t a * S8x4x32x32.size a + S8x4x32x32.size a := by
  show i ∈ ((View.whole main_v2).slice (win2_1.rect t)).set ↔ _
  rw [View.set_slice_whole, Rect.mem_set_unit]
  exact Iff.rfl

/-- Every index of the pooled array is in some point's output block: each channel is written by the point that takes it. -/
theorem cover (i : S8x64x32x32.Idx) :
    ∃ t : Fin cfg2.N, (cfg2.win 1).flush t = true ∧ i ∈ ((cfg2.win 1).blk t).view.set := by
  have hi0 : (i 0).val < 8 := (i 0).isLt
  have hi1 : (i 1).val < 64 := (i 1).isLt
  have hi2 : (i 2).val < 32 := (i 2).isLt
  have hi3 : (i 3).val < 32 := (i 3).isLt
  have hN : (i 1).val / 4 < cfg2.N := lt_of_lt_of_eq (by omega) N_2.symm
  obtain ⟨-, -, -, -, f0, f1, f2, f3⟩ := idx ⟨(i 1).val / 4, hN⟩
  have f1' : win2_1.index ⟨(i 1).val / 4, hN⟩ (1 : Fin 4) = (i 1).val / 4 := f1
  refine ⟨⟨(i 1).val / 4, hN⟩, flush2_1 _, ?_⟩
  rw [mem_blk]
  intro a
  match a with
  | ⟨0, _⟩ =>
    show win2_1.index ⟨(i 1).val / 4, hN⟩ (0 : Fin 4) * 8 ≤ (i 0).val ∧ (i 0).val < win2_1.index ⟨(i 1).val / 4, hN⟩ (0 : Fin 4) * 8 + 8
    omega
  | ⟨1, _⟩ =>
    show win2_1.index ⟨(i 1).val / 4, hN⟩ (1 : Fin 4) * 4 ≤ (i 1).val ∧ (i 1).val < win2_1.index ⟨(i 1).val / 4, hN⟩ (1 : Fin 4) * 4 + 4
    omega
  | ⟨2, _⟩ =>
    show win2_1.index ⟨(i 1).val / 4, hN⟩ (2 : Fin 4) * 32 ≤ (i 2).val ∧ (i 2).val < win2_1.index ⟨(i 1).val / 4, hN⟩ (2 : Fin 4) * 32 + 32
    omega
  | ⟨3, _⟩ =>
    show win2_1.index ⟨(i 1).val / 4, hN⟩ (3 : Fin 4) * 32 ≤ (i 3).val ∧ (i 3).val < win2_1.index ⟨(i 1).val / 4, hN⟩ (3 : Fin 4) * 32 + 32
    omega

/-- THE REGION'S OUTPUT ARRAY after its run is the pooled input array, whatever the buffers held at entry. -/
theorem final (c : Dev nD) : (dat2 V c).arrAt 1 cfg2.N = P3 (V c main_arg2) :=
  (dat2 V c).arrAt_eq_of_cover 1 (P3 (V c main_arg2)) (fun t _ => flushed V c t) cover

end Cert.KernelIdeal.Region2

end
-- ==== Proof.Region3.lean ====
/-
  REGION 3: maps of side 512 with 32 channels, pooled by windows of side 16; each of the 32 grid points takes 1 channel(s).
  The body's two-pass maximum of a block is the window maximum of the block; point `t`'s block of the input is the array
  read at that point's channels, and the window at `(h, w)` of one of those channels of the array is the window at
  `(h, w)` of the same channel of the block; the points' output blocks tile the pooled array. So the region leaves in
  its output array the pooled array `P4` of its input array, whatever the buffers held when it was entered.
-/
import proofs.«419399_j83597243450173_3_alg».proof.Proof.Gen.KernelIdeal.Frame
import proofs.«419399_j83597243450173_3_alg».proof.Proof.Spec

set_option maxRecDepth 16384

noncomputable section

namespace Cert.KernelIdeal.Region3

open Cert.KernelIdeal Cert.KernelIdeal.Gen Cert.Spec
open Idealize.ShloMosaic Idealize.ShloMosaic.TcCoe Idealize.SL.Sem Idealize.ShloMosaic.ValueIdx Idealize.ShloMosaic.WindowMax
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The window maximum of one point's block. -/
def poolBlk (x : (⟨4, ![8, 1, 512, 512]⟩ : Shape).Idx → EReal) : (⟨4, ![8, 1, 32, 32]⟩ : Shape).Idx → EReal :=
  maxPool (k := 16) rfl rfl x

/-- The body's payload is the window maximum of the block it loads. -/
theorem pay (x0 : Vec Ideal S8x1x512x512 .f32) : k3_pay1 x0 = poolBlk x0 := by
  funext j
  unfold k3_pay1 poolBlk
  exact twoPass_apply (B := 8) (C := 1) (H := 512) (W := 512) (Hk := 32) (Wk := 32) (k := 16) rfl rfl x0 _ _ _ _ _ _ _ _ j

/-- Pooling commutes with taking a channel block: if a block `x` is the array `X` at point `tt`'s channels, the block's
    pooled entry at its channel `c'` is the array's pooled entry at that channel of the array (a window stays inside its
    own channel's image). -/
theorem poolBlk_of_block (x : (⟨4, ![8, 1, 512, 512]⟩ : Shape).Idx → EReal) (X : (⟨4, ![8, 32, 512, 512]⟩ : Shape).Idx → EReal)
    (tt : Nat) (htt : tt < 32)
    (hx : ∀ (b : Fin 8) (c' : Fin 1) (r : Fin 512) (s : Fin 512), x (ix4 b c' r s) = X (ix4 b ⟨tt * 1 + c'.val, by omega⟩ r s))
    (b : Fin 8) (c' : Fin 1) (h : Fin 32) (w : Fin 32) :
    poolBlk x (ix4 b c' h w) = P4 X (ix4 b ⟨tt * 1 + c'.val, by omega⟩ h w) := by
  unfold poolBlk P4 maxPool
  refine Finset.sup_congr rfl fun i _ => Finset.sup_congr rfl fun jj _ => ?_
  exact hx b c' _ _

/-- The index maps over the grid: point `t` takes channel block `t` of the input and of the output, and all of every
    other axis. -/
theorem idx : ∀ t : Fin cfg3.N,
    win3_0.index t (0 : Fin 4) = 0 ∧ win3_0.index t (1 : Fin 4) = t.val ∧ win3_0.index t (2 : Fin 4) = 0 ∧ win3_0.index t (3 : Fin 4) = 0
    ∧ win3_1.index t (0 : Fin 4) = 0 ∧ win3_1.index t (1 : Fin 4) = t.val ∧ win3_1.index t (2 : Fin 4) = 0 ∧ win3_1.index t (3 : Fin 4) = 0 :=
  (by decide +kernel : ∀ t : Fin grid3.N, _)

/-- What point `t` writes back is block `t` of the pooled input array. -/
theorem flushed (c : Dev nD) (t : Fin cfg3.N) :
    (dat3 V c).flushed 1 t = ((cfg3.win 1).blk t).view.read (Elt Ideal) (P4 (V c main_arg3)) := by
  show (cfg3.win 1).cut (grid3.coords t) ((dat3 V c).after 1 t) = _
  rw [after3_1]
  unfold out3_1
  rw [View.canon_unit_zero hz]
  simp only [View.ld_unit_zero (S := S8x1x512x512) hz]
  rw [pay]
  obtain ⟨e0, e1, e2, e3, f0, f1, f2, f3⟩ := idx t
  have ht : t.val < 32 := lt_of_lt_of_eq t.isLt N_3
  funext y
  obtain ⟨b, c', h, w, rfl⟩ : ∃ (b : Fin 8) (c' : Fin 1) (h : Fin 32) (w : Fin 32), y = ix4 b c' h w :=
    ⟨y 0, y 1, y 2, y 3, eq_ix4 y⟩
  refine (poolBlk_of_block (iblk3 V c 0 t) (V c main_arg3) t.val ht (fun b c' r s => ?_) b c' h w).trans ?_
  · -- the input block at the point: the array at the point's channels
    show V c main_arg3 (((cfg3.win 0).blk t).view.emb (ix4 b c' r s)) = V c main_arg3 (ix4 b ⟨t.val * 1 + c'.val, by omega⟩ r s)
    refine congrArg (V c main_arg3) (funext fun a => Fin.ext ?_)
    match a with
    | ⟨0, _⟩ => show win3_0.index t (0 : Fin 4) * 8 + 1 * b.val = b.val; omega
    | ⟨1, _⟩ => show win3_0.index t (1 : Fin 4) * 1 + 1 * c'.val = t.val * 1 + c'.val; omega
    | ⟨2, _⟩ => show win3_0.index t (2 : Fin 4) * 512 + 1 * r.val = r.val; omega
    | ⟨3, _⟩ => show win3_0.index t (3 : Fin 4) * 512 + 1 * s.val = s.val; omega
  · -- the output block at the point: the pooled array at the same channels
    show P4 (V c main_arg3) (ix4 b ⟨t.val * 1 + c'.val, by omega⟩ h w) = P4 (V c main_arg3) (((cfg3.win 1).blk t).view.emb (ix4 b c' h w))
    refine congrArg (P4 (V c main_arg3)) (funext fun a => Fin.ext ?_)
    match a with
    | ⟨0, _⟩ => show b.val = win3_1.index t (0 : Fin 4) * 8 + 1 * b.val; omega
    | ⟨1, _⟩ => show t.val * 1 + c'.val = win3_1.index t (1 : Fin 4) * 1 + 1 * c'.val; omega
    | ⟨2, _⟩ => show h.val = win3_1.index t (2 : Fin 4) * 32 + 1 * h.val; omega
    | ⟨3, _⟩ => show w.val = win3_1.index t (3 : Fin 4) * 32 + 1 * w.val; omega

/-- An index of the pooled array is in point `t`'s output block iff each coordinate is in the block's range on its axis. -/
theorem mem_blk (t : Fin cfg3.N) (i : S8x32x32x32.Idx) :
    i ∈ ((cfg3.win 1).blk t).view.set ↔ ∀ a : Fin 4, win3_1.index t a * S8x1x32x32.size a ≤ (i a).val
      ∧ (i a).val < win3_1.index t a * S8x1x32x32.size a + S8x1x32x32.size a := by
  show i ∈ ((View.whole main_v3).slice (win3_1.rect t)).set ↔ _
  rw [View.set_slice_whole, Rect.mem_set_unit]
  exact Iff.rfl

/-- Every index of the pooled array is in some point's output block: each channel is written by the point that takes it. -/
theorem cover (i : S8x32x32x32.Idx) :
    ∃ t : Fin cfg3.N, (cfg3.win 1).flush t = true ∧ i ∈ ((cfg3.win 1).blk t).view.set := by
  have hi0 : (i 0).val < 8 := (i 0).isLt
  have hi1 : (i 1).val < 32 := (i 1).isLt
  have hi2 : (i 2).val < 32 := (i 2).isLt
  have hi3 : (i 3).val < 32 := (i 3).isLt
  have hN : (i 1).val / 1 < cfg3.N := lt_of_lt_of_eq (by omega) N_3.symm
  obtain ⟨-, -, -, -, f0, f1, f2, f3⟩ := idx ⟨(i 1).val / 1, hN⟩
  have f1' : win3_1.index ⟨(i 1).val / 1, hN⟩ (1 : Fin 4) = (i 1).val / 1 := f1
  refine ⟨⟨(i 1).val / 1, hN⟩, flush3_1 _, ?_⟩
  rw [mem_blk]
  intro a
  match a with
  | ⟨0, _⟩ =>
    show win3_1.index ⟨(i 1).val / 1, hN⟩ (0 : Fin 4) * 8 ≤ (i 0).val ∧ (i 0).val < win3_1.index ⟨(i 1).val / 1, hN⟩ (0 : Fin 4) * 8 + 8
    omega
  | ⟨1, _⟩ =>
    show win3_1.index ⟨(i 1).val / 1, hN⟩ (1 : Fin 4) * 1 ≤ (i 1).val ∧ (i 1).val < win3_1.index ⟨(i 1).val / 1, hN⟩ (1 : Fin 4) * 1 + 1
    omega
  | ⟨2, _⟩ =>
    show win3_1.index ⟨(i 1).val / 1, hN⟩ (2 : Fin 4) * 32 ≤ (i 2).val ∧ (i 2).val < win3_1.index ⟨(i 1).val / 1, hN⟩ (2 : Fin 4) * 32 + 32
    omega
  | ⟨3, _⟩ =>
    show win3_1.index ⟨(i 1).val / 1, hN⟩ (3 : Fin 4) * 32 ≤ (i 3).val ∧ (i 3).val < win3_1.index ⟨(i 1).val / 1, hN⟩ (3 : Fin 4) * 32 + 32
    omega

/-- THE REGION'S OUTPUT ARRAY after its run is the pooled input array, whatever the buffers held at entry. -/
theorem final (c : Dev nD) : (dat3 V c).arrAt 1 cfg3.N = P4 (V c main_arg3) :=
  (dat3 V c).arrAt_eq_of_cover 1 (P4 (V c main_arg3)) (fun t _ => flushed V c t) cover

end Cert.KernelIdeal.Region3

end
-- ==== Proof.Region4.lean ====
/-
  REGION 4: the sum. Point `t` of 32 takes channels `16t … 16t+15` of the fifth array and of the result, and of each
  pooled array the block whose index is `t` reduced modulo that array's number of blocks (16, 8, 4, 2): channel
  `16t + c'` of the result reads pooled channel `(16t + c') mod 256`, `mod 128`, `mod 64`, `mod 32`, which is channel
  `16 (t mod 16) + c'`, … of the pooled arrays. The body adds the five blocks in order and clamps at zero, entry by entry;
  the 32 output blocks tile the result. So the region leaves `combine` of its five input arrays in its output array.
-/
import proofs.«419399_j83597243450173_3_alg».proof.Proof.Gen.KernelIdeal.Frame
import proofs.«419399_j83597243450173_3_alg».proof.Proof.Spec

set_option maxRecDepth 16384

noncomputable section

namespace Cert.KernelIdeal.Region4

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0, 0, 0] : Fin 4 → Nat) = fun _ => 0 := funext fun a => by fin_cases a <;> rfl

/-- The region's five input arrays as it finds them, each at its literal type: the four pooled arrays and the fifth array. -/
abbrev p1arr (c : Dev nD) : (⟨4, ![8, 256, 32, 32]⟩ : Shape).Idx → EReal := V c main_v0
abbrev p2arr (c : Dev nD) : (⟨4, ![8, 128, 32, 32]⟩ : Shape).Idx → EReal := V c main_v1
abbrev p3arr (c : Dev nD) : (⟨4, ![8, 64, 32, 32]⟩ : Shape).Idx → EReal := V c main_v2
abbrev p4arr (c : Dev nD) : (⟨4, ![8, 32, 32, 32]⟩ : Shape).Idx → EReal := V c main_v3
abbrev x4arr (c : Dev nD) : (⟨4, ![8, 512, 32, 32]⟩ : Shape).Idx → EReal := V c main_arg4

/-- The body's payload, entry by entry: the five blocks added in order, clamped at zero. -/
theorem pay (x0 x1 x2 x3 x4 : Vec Ideal S8x16x32x32 .f32) (y : S8x16x32x32.Idx) :
    k4_pay1 x0 x1 x2 x3 x4 y = max (x0 y + x1 y + x2 y + x3 y + x4 y) 0 := by
  unfold k4_pay1
  simp only [shapeCast_self]
  show max (x0 y + x1 y + x2 y + x3 y + x4 y) (Ideal.ofBits .f32 0x00000000#32) = _
  rw [Ideal.ofBits_zero_f32]

/-- The index maps over the grid: the pooled arrays' block indices wrap around, the fifth array's and the result's do not. -/
theorem idx : ∀ t : Fin cfg4.N,
    win4_0.index t (0 : Fin 4) = 0 ∧ win4_0.index t (1 : Fin 4) = t.val % 16 ∧ win4_0.index t (2 : Fin 4) = 0 ∧ win4_0.index t (3 : Fin 4) = 0
    ∧ win4_1.index t (0 : Fin 4) = 0 ∧ win4_1.index t (1 : Fin 4) = t.val % 8 ∧ win4_1.index t (2 : Fin 4) = 0 ∧ win4_1.index t (3 : Fin 4) = 0
    ∧ win4_2.index t (0 : Fin 4) = 0 ∧ win4_2.index t (1 : Fin 4) = t.val % 4 ∧ win4_2.index t (2 : Fin 4) = 0 ∧ win4_2.index t (3 : Fin 4) = 0
    ∧ win4_3.index t (0 : Fin 4) = 0 ∧ win4_3.index t (1 : Fin 4) = t.val % 2 ∧ win4_3.index t (2 : Fin 4) = 0 ∧ win4_3.index t (3 : Fin 4) = 0
    ∧ win4_4.index t (0 : Fin 4) = 0 ∧ win4_4.index t (1 : Fin 4) = t.val ∧ win4_4.index t (2 : Fin 4) = 0 ∧ win4_4.index t (3 : Fin 4) = 0
    ∧ win4_5.index t (0 : Fin 4) = 0 ∧ win4_5.index t (1 : Fin 4) = t.val ∧ win4_5.index t (2 : Fin 4) = 0 ∧ win4_5.index t (3 : Fin 4) = 0 :=
  (by decide +kernel : ∀ t : Fin grid4.N, _)

/-- What point `t` writes back is block `t` of `combine` of the five input arrays. -/
theorem flushed (c : Dev nD) (t : Fin cfg4.N) :
    (dat4 V c).flushed 5 t = ((cfg4.win 5).blk t).view.read (Elt Ideal)
      (combine (V c main_v0) (V c main_v1) (V c main_v2) (V c main_v3) (V c main_arg4)) := by
  show (cfg4.win 5).cut (grid4.coords t) ((dat4 V c).after 5 t) = _
  rw [after4_5]
  unfold out4_5
  rw [View.canon_unit_zero hz]
  simp only [View.ld_unit_zero (S := S8x16x32x32) hz]
  obtain ⟨a0, a1, a2, a3, b0, b1, b2, b3, c0, c1, c2, c3, d0, d1, d2, d3, e0, e1, e2, e3, f0, f1, f2, f3⟩ := idx t
  have ht : t.val < 32 := lt_of_lt_of_eq t.isLt N_4
  funext y
  obtain ⟨b, c', h, w, rfl⟩ : ∃ (b : Fin 8) (c' : Fin 16) (h : Fin 32) (w : Fin 32), y = ix4 b c' h w :=
    ⟨y 0, y 1, y 2, y 3, eq_ix4 y⟩
  refine (pay _ _ _ _ _ _).trans ?_
  show max (p1arr V c (((cfg4.win 0).blk t).view.emb (ix4 b c' h w)) + p2arr V c (((cfg4.win 1).blk t).view.emb (ix4 b c' h w))
        + p3arr V c (((cfg4.win 2).blk t).view.emb (ix4 b c' h w)) + p4arr V c (((cfg4.win 3).blk t).view.emb (ix4 b c' h w))
        + x4arr V c (((cfg4.win 4).blk t).view.emb (ix4 b c' h w))) 0
    = combine (p1arr V c) (p2arr V c) (p3arr V c) (p4arr V c) (x4arr V c) (((cfg4.win 5).blk t).view.emb (ix4 b c' h w))
  unfold combine
  -- each pooled array's block at the point sits at the result block's channels reduced modulo that array's channel count
  have h0 : ((cfg4.win 0).blk t).view.emb (ix4 b c' h w)
      = wrap 256 (by decide) (((cfg4.win 5).blk t).view.emb (ix4 b c' h w)) := by
    funext a; apply Fin.ext
    match a with
    | ⟨0, _⟩ => show win4_0.index t (0 : Fin 4) * 8 + 1 * b.val = win4_5.index t (0 : Fin 4) * 8 + 1 * b.val; omega
    | ⟨1, _⟩ => show win4_0.index t (1 : Fin 4) * 16 + 1 * c'.val = (win4_5.index t (1 : Fin 4) * 16 + 1 * c'.val) % 256; omega
    | ⟨2, _⟩ => show win4_0.index t (2 : Fin 4) * 32 + 1 * h.val = win4_5.index t (2 : Fin 4) * 32 + 1 * h.val; omega
    | ⟨3, _⟩ => show win4_0.index t (3 : Fin 4) * 32 + 1 * w.val = win4_5.index t (3 : Fin 4) * 32 + 1 * w.val; omega
  have h1 : ((cfg4.win 1).blk t).view.emb (ix4 b c' h w)
      = wrap 128 (by decide) (((cfg4.win 5).blk t).view.emb (ix4 b c' h w)) := by
    funext a; apply Fin.ext
    match a with
    | ⟨0, _⟩ => show win4_1.index t (0 : Fin 4) * 8 + 1 * b.val = win4_5.index t (0 : Fin 4) * 8 + 1 * b.val; omega
    | ⟨1, _⟩ => show win4_1.index t (1 : Fin 4) * 16 + 1 * c'.val = (win4_5.index t (1 : Fin 4) * 16 + 1 * c'.val) % 128; omega
    | ⟨2, _⟩ => show win4_1.index t (2 : Fin 4) * 32 + 1 * h.val = win4_5.index t (2 : Fin 4) * 32 + 1 * h.val; omega
    | ⟨3, _⟩ => show win4_1.index t (3 : Fin 4) * 32 + 1 * w.val = win4_5.index t (3 : Fin 4) * 32 + 1 * w.val; omega
  have h2 : ((cfg4.win 2).blk t).view.emb (ix4 b c' h w)
      = wrap 64 (by decide) (((cfg4.win 5).blk t).view.emb (ix4 b c' h w)) := by
    funext a; apply Fin.ext
    match a with
    | ⟨0, _⟩ => show win4_2.index t (0 : Fin 4) * 8 + 1 * b.val = win4_5.index t (0 : Fin 4) * 8 + 1 * b.val; omega
    | ⟨1, _⟩ => show win4_2.index t (1 : Fin 4) * 16 + 1 * c'.val = (win4_5.index t (1 : Fin 4) * 16 + 1 * c'.val) % 64; omega
    | ⟨2, _⟩ => show win4_2.index t (2 : Fin 4) * 32 + 1 * h.val = win4_5.index t (2 : Fin 4) * 32 + 1 * h.val; omega
    | ⟨3, _⟩ => show win4_2.index t (3 : Fin 4) * 32 + 1 * w.val = win4_5.index t (3 : Fin 4) * 32 + 1 * w.val; omega
  have h3 : ((cfg4.win 3).blk t).view.emb (ix4 b c' h w)
      = wrap 32 (by decide) (((cfg4.win 5).blk t).view.emb (ix4 b c' h w)) := by
    funext a; apply Fin.ext
    match a with
    | ⟨0, _⟩ => show win4_3.index t (0 : Fin 4) * 8 + 1 * b.val = win4_5.index t (0 : Fin 4) * 8 + 1 * b.val; omega
    | ⟨1, _⟩ => show win4_3.index t (1 : Fin 4) * 16 + 1 * c'.val = (win4_5.index t (1 : Fin 4) * 16 + 1 * c'.val) % 32; omega
    | ⟨2, _⟩ => show win4_3.index t (2 : Fin 4) * 32 + 1 * h.val = win4_5.index t (2 : Fin 4) * 32 + 1 * h.val; omega
    | ⟨3, _⟩ => show win4_3.index t (3 : Fin 4) * 32 + 1 * w.val = win4_5.index t (3 : Fin 4) * 32 + 1 * w.val; omega
  -- the fifth array's block sits at the result block's own channels
  have h4 : ((cfg4.win 4).blk t).view.emb (ix4 b c' h w) = ((cfg4.win 5).blk t).view.emb (ix4 b c' h w) := by
    funext a; apply Fin.ext
    match a with
    | ⟨0, _⟩ => show win4_4.index t (0 : Fin 4) * 8 + 1 * b.val = win4_5.index t (0 : Fin 4) * 8 + 1 * b.val; omega
    | ⟨1, _⟩ => show win4_4.index t (1 : Fin 4) * 16 + 1 * c'.val = win4_5.index t (1 : Fin 4) * 16 + 1 * c'.val; omega
    | ⟨2, _⟩ => show win4_4.index t (2 : Fin 4) * 32 + 1 * h.val = win4_5.index t (2 : Fin 4) * 32 + 1 * h.val; omega
    | ⟨3, _⟩ => show win4_4.index t (3 : Fin 4) * 32 + 1 * w.val = win4_5.index t (3 : Fin 4) * 32 + 1 * w.val; omega
  rw [h0, h1, h2, h3, h4]

/-- An index of the result is in point `t`'s output block iff each coordinate is in the block's range on its axis. -/
theorem mem_blk (t : Fin cfg4.N) (i : S8x512x32x32.Idx) :
    i ∈ ((cfg4.win 5).blk t).view.set ↔ ∀ a : Fin 4, win4_5.index t a * S8x16x32x32.size a ≤ (i a).val
      ∧ (i a).val < win4_5.index t a * S8x16x32x32.size a + S8x16x32x32.size a := by
  show i ∈ ((View.whole main_v4).slice (win4_5.rect t)).set ↔ _
  rw [View.set_slice_whole, Rect.mem_set_unit]
  exact Iff.rfl

/-- Every index of the result is in some point's output block: channel `ch` is written by point `ch / 16`. -/
theorem cover (i : S8x512x32x32.Idx) :
    ∃ t : Fin cfg4.N, (cfg4.win 5).flush t = true ∧ i ∈ ((cfg4.win 5).blk t).view.set := by
  have hi0 : (i 0).val < 8 := (i 0).isLt
  have hi1 : (i 1).val < 512 := (i 1).isLt
  have hi2 : (i 2).val < 32 := (i 2).isLt
  have hi3 : (i 3).val < 32 := (i 3).isLt
  have hN : (i 1).val / 16 < cfg4.N := lt_of_lt_of_eq (by omega) N_4.symm
  obtain ⟨-, -, -, -, -, -, -, -, -, -, -, -, -, -, -, -, -, -, -, -, f0, f1, f2, f3⟩ := idx ⟨(i 1).val / 16, hN⟩
  have f1' : win4_5.index ⟨(i 1).val / 16, hN⟩ (1 : Fin 4) = (i 1).val / 16 := f1
  refine ⟨⟨(i 1).val / 16, hN⟩, flush4_5 _, ?_⟩
  rw [mem_blk]
  intro a
  match a with
  | ⟨0, _⟩ =>
    show win4_5.index ⟨(i 1).val / 16, hN⟩ (0 : Fin 4) * 8 ≤ (i 0).val ∧ (i 0).val < win4_5.index ⟨(i 1).val / 16, hN⟩ (0 : Fin 4) * 8 + 8
    omega
  | ⟨1, _⟩ =>
    show win4_5.index ⟨(i 1).val / 16, hN⟩ (1 : Fin 4) * 16 ≤ (i 1).val ∧ (i 1).val < win4_5.index ⟨(i 1).val / 16, hN⟩ (1 : Fin 4) * 16 + 16
    omega
  | ⟨2, _⟩ =>
    show win4_5.index ⟨(i 1).val / 16, hN⟩ (2 : Fin 4) * 32 ≤ (i 2).val ∧ (i 2).val < win4_5.index ⟨(i 1).val / 16, hN⟩ (2 : Fin 4) * 32 + 32
    omega
  | ⟨3, _⟩ =>
    show win4_5.index ⟨(i 1).val / 16, hN⟩ (3 : Fin 4) * 32 ≤ (i 3).val ∧ (i 3).val < win4_5.index ⟨(i 1).val / 16, hN⟩ (3 : Fin 4) * 32 + 32
    omega

/-- THE REGION'S OUTPUT ARRAY after its run is `combine` of its five input arrays as it found them. -/
theorem final (c : Dev nD) :
    (dat4 V c).arrAt 5 cfg4.N = combine (V c main_v0) (V c main_v1) (V c main_v2) (V c main_v3) (V c main_arg4) :=
  (dat4 V c).arrAt_eq_of_cover 5 _ (fun t _ => flushed V c t) cover

end Cert.KernelIdeal.Region4

end
-- ==== Proof.KernelValue.lean ====
/-
  The idealized kernel program's result, as the function `G` of the arguments as launched.
  The five regions run one after the other, and each leaves its output array at a function of the arrays it found: the
  four pooling regions at `P1 … P4` of their inputs, the last at `combine` of the four pooled arrays and the fifth
  argument. No region writes an argument, and none writes another region's pooled array, so when the last region is entered
  each pooled array still holds what its region left and each argument what was launched. Chaining these facts from the
  last region boundary back to the launch gives the result buffer's final contents.
-/
import proofs.«419399_j83597243450173_3_alg».proof.Proof.KernelRunNamed
import proofs.«419399_j83597243450173_3_alg».proof.Proof.Region0
import proofs.«419399_j83597243450173_3_alg».proof.Proof.Region1
import proofs.«419399_j83597243450173_3_alg».proof.Proof.Region2
import proofs.«419399_j83597243450173_3_alg».proof.Proof.Region3
import proofs.«419399_j83597243450173_3_alg».proof.Proof.Region4

set_option maxRecDepth 16384

noncomputable section

namespace Cert.KernelIdeal.KernelValue

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- When the last region is entered, the first pooled array is `P1` of the first argument as launched: region 0 left it
    so, and regions 1, 2 and 3 do not touch it. -/
theorem pooled0 (c : Dev nD) : V4 m ρ c main_v0 = P1 (m ((c : Thread nD τ).loc main_arg0)) :=
  calc W4 m ρ c (Proc.devRef .tc main_v0)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1
    _ = P1 (V0 m ρ c main_arg0) := Region0.final (V0 m ρ) c
    _ = P1 (m ((c : Thread nD τ).loc main_arg0)) := rfl

/-- The second pooled array is `P2` of the second argument as launched: region 0 does not touch that argument, region 1
    pools it, regions 2 and 3 do not touch the pooled array. -/
theorem pooled1 (c : Dev nD) : V4 m ρ c main_v1 = P2 (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 1 cfg1.N := W2_arr m ρ c 1
    _ = P2 (V1 m ρ c main_arg1) := Region1.final (V1 m ρ) c
    _ = P2 (m ((c : Thread nD τ).loc main_arg1)) := congrArg P2 (W1_of_ne m ρ c main_arg1 (by decide))

/-- The third pooled array is `P3` of the third argument as launched. -/
theorem pooled2 (c : Dev nD) : V4 m ρ c main_v2 = P3 (m ((c : Thread nD τ).loc main_arg2)) :=
  calc W4 m ρ c (Proc.devRef .tc main_v2)
    _ = W3 m ρ c (Proc.devRef .tc main_v2) := W4_of_ne m ρ c main_v2 (by decide)
    _ = (dat2 (V2 m ρ) c).arrAt 1 cfg2.N := W3_arr m ρ c 1
    _ = P3 (V2 m ρ c main_arg2) := Region2.final (V2 m ρ) c
    _ = P3 (m ((c : Thread nD τ).loc main_arg2)) :=
      congrArg P3 ((W2_of_ne m ρ c main_arg2 (by decide)).trans (W1_of_ne m ρ c main_arg2 (by decide)))

/-- The fourth pooled array is `P4` of the fourth argument as launched. -/
theorem pooled3 (c : Dev nD) : V4 m ρ c main_v3 = P4 (m ((c : Thread nD τ).loc main_arg3)) :=
  calc W4 m ρ c (Proc.devRef .tc main_v3)
    _ = (dat3 (V3 m ρ) c).arrAt 1 cfg3.N := W4_arr m ρ c 1
    _ = P4 (V3 m ρ c main_arg3) := Region3.final (V3 m ρ) c
    _ = P4 (m ((c : Thread nD τ).loc main_arg3)) :=
      congrArg P4 ((W3_of_ne m ρ c main_arg3 (by decide)).trans
        ((W2_of_ne m ρ c main_arg3 (by decide)).trans (W1_of_ne m ρ c main_arg3 (by decide))))

/-- The fifth argument is as launched when the last region is entered: no pooling region touches it. -/
theorem kept4 (c : Dev nD) : V4 m ρ c main_arg4 = m ((c : Thread nD τ).loc main_arg4) :=
  (W4_of_ne m ρ c main_arg4 (by decide)).trans ((W3_of_ne m ρ c main_arg4 (by decide)).trans
    ((W2_of_ne m ρ c main_arg4 (by decide)).trans (W1_of_ne m ρ c main_arg4 (by decide))))

/-- THE RESULT BUFFER at the last region boundary holds `G` of the five arguments as launched. -/
theorem result_eq (c : Dev nD) :
    W5 m ρ c (Proc.devRef .tc main_v4)
      = G (m ((c : Thread nD τ).loc main_arg0)) (m ((c : Thread nD τ).loc main_arg1)) (m ((c : Thread nD τ).loc main_arg2))
          (m ((c : Thread nD τ).loc main_arg3)) (m ((c : Thread nD τ).loc main_arg4)) :=
  calc W5 m ρ c (Proc.devRef .tc main_v4)
    _ = (dat4 (V4 m ρ) c).arrAt 5 cfg4.N := W5_arr m ρ c 5
    _ = combine (V4 m ρ c main_v0) (V4 m ρ c main_v1) (V4 m ρ c main_v2) (V4 m ρ c main_v3) (V4 m ρ c main_arg4) :=
      Region4.final (V4 m ρ) c
    _ = _ := by rw [pooled0 m ρ c, pooled1 m ρ c, pooled2 m ρ c, pooled3 m ρ c, kept4 m ρ c]; rfl

/-- THE RUN of the idealized kernel program: it terminates, nothing faulting, with the result array at `G` of the arguments
    as launched and the arguments unchanged. -/
theorem run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.RunNamed.run_named m ρ)

end Cert.KernelIdeal.KernelValue

end
-- ==== Proof.LibTile.lean ====
/-
  Tiling an array `n` times along its channel axis, `[B, C, Hk, Wk] → [B, n·C, Hk, Wk]`, spelt as three layout steps —
  a reshape to `[1, B, 1, C, 1, Hk, 1, Wk]`, a broadcast of the unit axis in front of the channels to `n`, a reshape that
  merges that axis with the channels — read at an index: channel `ch` of the result is channel `ch mod C` of the array.
  All sizes are parameters.
-/
import proofs.«419399_j83597243450173_3_alg».proof.Proof.LibWindowMax
import Idealize.ShloMosaic.Lib.Pipeline.Value

noncomputable section

namespace Idealize.ShloMosaic.WindowMax

open Idealize.ShloMosaic.ValueIdx

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

variable {α : Type} {B C n CC Hk Wk : Nat}

/-- Channel `ch` of `n` copies of a `C`-channel array laid one after the other is channel `ch mod C` of the array:
    the copies are made by inserting a unit axis in front of the channels, broadcasting it to `n`, and merging it with
    the channel axis. -/
theorem tile_apply (hC : CC = n * C) (hCpos : 0 < C) (P : (⟨4, ![B, C, Hk, Wk]⟩ : Shape).Idx → α)
    (sc1 : (⟨4, ![B, C, Hk, Wk]⟩ : Shape).ShapeCasts ⟨8, ![1, B, 1, C, 1, Hk, 1, Wk]⟩)
    (bc : (⟨8, ![1, B, 1, C, 1, Hk, 1, Wk]⟩ : Shape).BroadcastsInDim ⟨8, ![1, B, n, C, 1, Hk, 1, Wk]⟩ ![0, 1, 2, 3, 4, 5, 6, 7])
    (sc2 : (⟨8, ![1, B, n, C, 1, Hk, 1, Wk]⟩ : Shape).ShapeCasts ⟨4, ![B, CC, Hk, Wk]⟩)
    (j : (⟨4, ![B, CC, Hk, Wk]⟩ : Shape).Idx) :
    shapeCast ⟨4, ![B, CC, Hk, Wk]⟩ (broadcastInDim ⟨8, ![1, B, n, C, 1, Hk, 1, Wk]⟩ ![0, 1, 2, 3, 4, 5, 6, 7] bc
        (shapeCast ⟨8, ![1, B, 1, C, 1, Hk, 1, Wk]⟩ P sc1)) sc2 j
      = P (ix4 (j 0) ⟨(j 1).val % C, Nat.mod_lt _ hCpos⟩ (j 2) (j 3)) := by
  have hq : (j 1).val / C < n := by
    have h1 : (j 1).val < n * C := hC ▸ (j 1).isLt
    exact Nat.div_lt_of_lt_mul (by rwa [Nat.mul_comm] at h1)
  have hdm : (j 1).val = (j 1).val / C * C + (j 1).val % C := by
    have := Nat.div_add_mod (j 1).val C; rw [Nat.mul_comm] at this; exact this.symm
  -- the merged index, split back into copy number and channel
  rw [shapeCast_apply _ sc2 j (ix8 (⟨0, Nat.one_pos⟩ : Fin 1) (j 0) (⟨(j 1).val / C, hq⟩ : Fin n) (⟨(j 1).val % C, Nat.mod_lt _ hCpos⟩ : Fin C)
      (⟨0, Nat.one_pos⟩ : Fin 1) (j 2) (⟨0, Nat.one_pos⟩ : Fin 1) (j 3)) ?h2]
  case h2 =>
    rw [Shape.rowMajor_val_eight, Shape.rowMajor_val_four]
    have key : ∀ a0 q r a2 a3 : Nat, (((((((0 * B + a0) * n + q) * C + r) * 1 + 0) * Hk + a2) * 1 + 0) * Wk + a3)
        = ((a0 * (n * C) + (q * C + r)) * Hk + a2) * Wk + a3 := by intros; ring
    show (((((((0 * B + (j 0).val) * n + (j 1).val / C) * C + (j 1).val % C) * 1 + 0) * Hk + (j 2).val) * 1 + 0) * Wk + (j 3).val)
      = (((j 0).val * CC + (j 1).val) * Hk + (j 2).val) * Wk + (j 3).val
    rw [key, ← hdm, ← hC]
  -- the copies: the broadcast axis is read at 0, every other axis where it is
  have hj0 : (j 0).val < B := (j 0).isLt
  have hj2 : (j 2).val < Hk := (j 2).isLt
  have hj3 : (j 3).val < Wk := (j 3).isLt
  have hr : (j 1).val % C < C := Nat.mod_lt _ hCpos
  rw [broadcastInDim_apply _ bc _ _ (ix8 (⟨0, Nat.one_pos⟩ : Fin 1) (j 0) (⟨0, Nat.one_pos⟩ : Fin 1) (⟨(j 1).val % C, hr⟩ : Fin C)
      (⟨0, Nat.one_pos⟩ : Fin 1) (j 2) (⟨0, Nat.one_pos⟩ : Fin 1) (j 3)) ?h3]
  case h3 =>
    intro a
    match a with
    | ⟨0, _⟩ => show 0 = if (1 : Nat) = 1 then 0 else _; rw [if_pos rfl]
    | ⟨1, _⟩ => show (j 0).val = if B = 1 then 0 else (j 0).val; split_ifs <;> omega
    | ⟨2, _⟩ => show 0 = if (1 : Nat) = 1 then 0 else _; rw [if_pos rfl]
    | ⟨3, _⟩ => show (j 1).val % C = if C = 1 then 0 else (j 1).val % C; split_ifs <;> omega
    | ⟨4, _⟩ => show 0 = if (1 : Nat) = 1 then 0 else _; rw [if_pos rfl]
    | ⟨5, _⟩ => show (j 2).val = if Hk = 1 then 0 else (j 2).val; split_ifs <;> omega
    | ⟨6, _⟩ => show 0 = if (1 : Nat) = 1 then 0 else _; rw [if_pos rfl]
    | ⟨7, _⟩ => show (j 3).val = if Wk = 1 then 0 else (j 3).val; split_ifs <;> omega
  -- the unit axes inserted by the first reshape do not move the row-major position
  refine shapeCast_apply P sc1 _ _ ?_
  rw [Shape.rowMajor_val_eight, Shape.rowMajor_val_four]
  show (((j 0).val * C + (j 1).val % C) * Hk + (j 2).val) * Wk + (j 3).val
    = (((((((0 * B + (j 0).val) * 1 + 0) * C + (j 1).val % C) * 1 + 0) * Hk + (j 2).val) * 1 + 0) * Wk + (j 3).val)
  ring

end Idealize.ShloMosaic.WindowMax

end
-- ==== Proof.RefValue.lean ====
/-
  The reference program's result, stage by stage, is the function `G` of the five arguments: each windowed maximum from
  minus infinity is the pooled array; each reshape–broadcast–reshape repeats it along the channels, so channel `ch` reads
  pooled channel `ch mod C`; the four additions and the maximum with zero are entry by entry.
-/
import proofs.«419399_j83597243450173_3_alg».proof.Proof.Gen.ReferenceIdeal.Read
import proofs.«419399_j83597243450173_3_alg».proof.Proof.Spec
import proofs.«419399_j83597243450173_3_alg».proof.Proof.LibTile

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.ShloMosaic.WindowMax

/-- The minus-infinity scalar the windowed reduction starts from. -/
theorem init0 (i : S_.Idx) : val_main_v0 (F := Ideal) i = (⊥ : EReal) := by
  rw [val_main_v0_apply, val_main_cst_apply]; exact ofBits_neg_inf

/-- The windowed maximum of argument 0 is its pooled array. -/
theorem pooled0 (x0 : (⟨4, ![8, 256, 64, 64]⟩ : Shape).Idx → EReal) : val_main_v1 (F := Ideal) x0 = P1 x0 := by
  funext j
  unfold val_main_v1 P1
  exact reduceWindow_apply (B := 8) (C := 256) (H := 64) (W := 64) (Hk := 32) (Wk := 32) (k := 2) rfl rfl x0 _ init0 _ _ j

/-- The pooled array of argument 0 repeated 2 times along the channels, read at an index. -/
theorem tiled0 (x0 : (⟨4, ![8, 256, 64, 64]⟩ : Shape).Idx → EReal) (i : (⟨4, ![8, 512, 32, 32]⟩ : Shape).Idx) :
    val_main_v4 (F := Ideal) x0 i = P1 x0 (wrap 256 (by decide) i) := by
  unfold val_main_v4 val_main_v3 val_main_v2
  rw [pooled0]
  exact tile_apply (B := 8) (C := 256) (n := 2) (CC := 512) (Hk := 32) (Wk := 32) rfl (by decide) (P1 x0) _ _ _ i

/-- The minus-infinity scalar the windowed reduction starts from. -/
theorem init1 (i : S_.Idx) : val_main_v5 (F := Ideal) i = (⊥ : EReal) := by
  rw [val_main_v5_apply, val_main_cst_0_apply]; exact ofBits_neg_inf

/-- The windowed maximum of argument 1 is its pooled array. -/
theorem pooled1 (x1 : (⟨4, ![8, 128, 128, 128]⟩ : Shape).Idx → EReal) : val_main_v6 (F := Ideal) x1 = P2 x1 := by
  funext j
  unfold val_main_v6 P2
  exact reduceWindow_apply (B := 8) (C := 128) (H := 128) (W := 128) (Hk := 32) (Wk := 32) (k := 4) rfl rfl x1 _ init1 _ _ j

/-- The pooled array of argument 1 repeated 4 times along the channels, read at an index. -/
theorem tiled1 (x1 : (⟨4, ![8, 128, 128, 128]⟩ : Shape).Idx → EReal) (i : (⟨4, ![8, 512, 32, 32]⟩ : Shape).Idx) :
    val_main_v9 (F := Ideal) x1 i = P2 x1 (wrap 128 (by decide) i) := by
  unfold val_main_v9 val_main_v8 val_main_v7
  rw [pooled1]
  exact tile_apply (B := 8) (C := 128) (n := 4) (CC := 512) (Hk := 32) (Wk := 32) rfl (by decide) (P2 x1) _ _ _ i

/-- The minus-infinity scalar the windowed reduction starts from. -/
theorem init2 (i : S_.Idx) : val_main_v10 (F := Ideal) i = (⊥ : EReal) := by
  rw [val_main_v10_apply, val_main_cst_1_apply]; exact ofBits_neg_inf

/-- The windowed maximum of argument 2 is its pooled array. -/
theorem pooled2 (x2 : (⟨4, ![8, 64, 256, 256]⟩ : Shape).Idx → EReal) : val_main_v11 (F := Ideal) x2 = P3 x2 := by
  funext j
  unfold val_main_v11 P3
  exact reduceWindow_apply (B := 8) (C := 64) (H := 256) (W := 256) (Hk := 32) (Wk := 32) (k := 8) rfl rfl x2 _ init2 _ _ j

/-- The pooled array of argument 2 repeated 8 times along the channels, read at an index. -/
theorem tiled2 (x2 : (⟨4, ![8, 64, 256, 256]⟩ : Shape).Idx → EReal) (i : (⟨4, ![8, 512, 32, 32]⟩ : Shape).Idx) :
    val_main_v14 (F := Ideal) x2 i = P3 x2 (wrap 64 (by decide) i) := by
  unfold val_main_v14 val_main_v13 val_main_v12
  rw [pooled2]
  exact tile_apply (B := 8) (C := 64) (n := 8) (CC := 512) (Hk := 32) (Wk := 32) rfl (by decide) (P3 x2) _ _ _ i

/-- The minus-infinity scalar the windowed reduction starts from. -/
theorem init3 (i : S_.Idx) : val_main_v15 (F := Ideal) i = (⊥ : EReal) := by
  rw [val_main_v15_apply, val_main_cst_2_apply]; exact ofBits_neg_inf

/-- The windowed maximum of argument 3 is its pooled array. -/
theorem pooled3 (x3 : (⟨4, ![8, 32, 512, 512]⟩ : Shape).Idx → EReal) : val_main_v16 (F := Ideal) x3 = P4 x3 := by
  funext j
  unfold val_main_v16 P4
  exact reduceWindow_apply (B := 8) (C := 32) (H := 512) (W := 512) (Hk := 32) (Wk := 32) (k := 16) rfl rfl x3 _ init3 _ _ j

/-- The pooled array of argument 3 repeated 16 times along the channels, read at an index. -/
theorem tiled3 (x3 : (⟨4, ![8, 32, 512, 512]⟩ : Shape).Idx → EReal) (i : (⟨4, ![8, 512, 32, 32]⟩ : Shape).Idx) :
    val_main_v19 (F := Ideal) x3 i = P4 x3 (wrap 32 (by decide) i) := by
  unfold val_main_v19 val_main_v18 val_main_v17
  rw [pooled3]
  exact tile_apply (B := 8) (C := 32) (n := 16) (CC := 512) (Hk := 32) (Wk := 32) rfl (by decide) (P4 x3) _ _ _ i

/-- THE REFERENCE'S RESULT IS `G`: the last stage, read back through the additions to the four tiled pooled arrays. -/
theorem result_eq (x0 : (⟨4, ![8, 256, 64, 64]⟩ : Shape).Idx → EReal) (x1 : (⟨4, ![8, 128, 128, 128]⟩ : Shape).Idx → EReal)
    (x2 : (⟨4, ![8, 64, 256, 256]⟩ : Shape).Idx → EReal) (x3 : (⟨4, ![8, 32, 512, 512]⟩ : Shape).Idx → EReal)
    (x4 : (⟨4, ![8, 512, 32, 32]⟩ : Shape).Idx → EReal) :
    val_main_v24 (F := Ideal) x0 x1 x2 x3 x4 = G x0 x1 x2 x3 x4 := by
  funext i
  rw [val_main_v24_apply, val_main_v23_apply, val_main_v22_apply, val_main_v21_apply, val_main_v20_apply,
    val_main_call0_v0_apply, val_main_call0_cst_apply, tiled0, tiled1, tiled2, tiled3]
  simp only [G, combine, Ideal.addf_def, Ideal.maximumf_def, Ideal.ofBits_def, Ideal.ofBits_zero_f32]

end Cert.ReferenceIdeal.RefValue

end
-- ==== Proof.lean ====
/-
  The certificate of a pooled feature-map sum: four feature maps of one batch, at resolutions 64, 128, 256 and 512 with
  256, 128, 64 and 32 channels, are max-pooled to 32 × 32, each repeated along the channels to 512 channels, added in
  order to a fifth array and clamped at zero.

  The kernel program pools each map in its own grid of channel blocks by two one-axis maxima (rows of a window, then its
  columns) and adds in a fifth grid whose index maps wrap the pooled arrays' channel blocks around; the reference pools by
  one windowed maximum from minus infinity, repeats by reshape–broadcast–reshape, adds and clamps. Over the extended
  reals both end with the function `Cert.Spec.G` of the five arguments: a maximum over a window is the same whatever
  the grouping and order (`max` is associative and commutative, minus infinity its unit), output channel `ch` of the
  wrapped block index is pooled channel `ch mod C`, which is what the repetition reads, and the four sums and the clamp
  are the same operations in the same order. No finiteness of the inputs is used.

  The frames of the two kernel programs are the generated ones; the reference's is its generated run with the result
  dropped; the idealization rewrote nothing.
-/
import proofs.«419399_j83597243450173_3_alg».proof.Defs
import proofs.«419399_j83597243450173_3_alg».proof.Proof.Gen.Kernel
import proofs.«419399_j83597243450173_3_alg».proof.Proof.Gen.Kernel.Skeleton
import proofs.«419399_j83597243450173_3_alg».proof.Proof.Gen.Kernel.Launch
import proofs.«419399_j83597243450173_3_alg».proof.Proof.Gen.Kernel.Points
import proofs.«419399_j83597243450173_3_alg».proof.Proof.Gen.Kernel.Frame
import proofs.«419399_j83597243450173_3_alg».proof.Proof.Gen.KernelIdeal
import proofs.«419399_j83597243450173_3_alg».proof.Proof.Gen.KernelIdeal.Skeleton
import proofs.«419399_j83597243450173_3_alg».proof.Proof.Gen.KernelIdeal.Launch
import proofs.«419399_j83597243450173_3_alg».proof.Proof.Gen.KernelIdeal.Points
import proofs.«419399_j83597243450173_3_alg».proof.Proof.Gen.KernelIdeal.Frame
import proofs.«419399_j83597243450173_3_alg».proof.Proof.Gen.ReferenceIdeal
import proofs.«419399_j83597243450173_3_alg».proof.Proof.Gen.Pre_finite_inputs
import proofs.«419399_j83597243450173_3_alg».proof.Proof.Gen.ReferenceIdeal.Run
import proofs.«419399_j83597243450173_3_alg».proof.Proof.Gen.ReferenceIdeal.Read
import proofs.«419399_j83597243450173_3_alg».proof.Proof.KernelValue
import proofs.«419399_j83597243450173_3_alg».proof.Proof.RefValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs, and its arguments end unchanged: its generated run, the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the five arguments both programs end with `G` of those arguments in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
